-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64 : Shape := ⟨2, ![128, 64]⟩
abbrev S64x16384 : Shape := ⟨2, ![64, 16384]⟩
abbrev S128x128x128 : Shape := ⟨3, ![128, 128, 128]⟩
abbrev S128x30x128 : Shape := ⟨3, ![128, 30, 128]⟩
abbrev S_ : Shape := ⟨0, ![]⟩

class Facts : Prop where
  bcast_S_S128x64 : S_.BroadcastsInDim S128x64 (![] : Fin 0 → Fin S128x64.rank)
  reducesTo_S128x64_S_d0_1 : S128x64.ReducesTo [0, 1] S_
  h_S_ : 0 < S_.numel
  bcast_S_S64x16384 : S_.BroadcastsInDim S64x16384 (![] : Fin 0 → Fin S64x16384.rank)
  reducesTo_S64x16384_S_d0_1 : S64x16384.ReducesTo [0, 1] S_
  bcast_S_S128x30x128 : S_.BroadcastsInDim S128x30x128 (![] : Fin 0 → Fin S128x30x128.rank)
  reducesTo_S128x30x128_S_d0_1_2 : S128x30x128.ReducesTo [0, 1, 2] S_

variable [Facts]

def fn_part1 {F : FTy → Type} [FloatOps F] (main_arg6 : IVec S128x30x128 32) (main_v13 : IVec S_ 1) (main_v16 : IVec S64x16384 1) : IVec S_ 1 :=
  let main_c_5 : IVec S_ 1 := constantI S_ 1 1#1
  let main_v17 : IVec S_ 1 := (fun x v => Host.reduce IntOp.andi x v reducesTo_S64x16384_S_d0_1 h_S_) main_v16 main_c_5
  let main_v18 : IVec S_ 1 := andi main_v13 main_v17
  let main_c_6 : IVec S_ 32 := constantI S_ 32 0#32
  let main_v19 : IVec S128x30x128 32 := broadcastInDim S128x30x128 ![] bcast_S_S128x30x128 main_c_6
  let main_v20 : IVec S128x30x128 1 := cmpi .sge main_arg6 main_v19
  let main_c_7 : IVec S_ 32 := constantI S_ 32 128#32
  let main_v21 : IVec S128x30x128 32 := broadcastInDim S128x30x128 ![] bcast_S_S128x30x128 main_c_7
  let main_v22 : IVec S128x30x128 1 := cmpi .slt main_arg6 main_v21
  let main_v23 : IVec S128x30x128 1 := andi main_v20 main_v22
  let main_c_8 : IVec S_ 1 := constantI S_ 1 1#1
  let main_v24 : IVec S_ 1 := (fun x v => Host.reduce IntOp.andi x v reducesTo_S128x30x128_S_d0_1_2 h_S_) main_v23 main_c_8
  let main_v25 : IVec S_ 1 := andi main_v18 main_v24
  main_v25

def fn {F : FTy → Type} [FloatOps F] (main_arg0 : FVec F S128x64 .f32) (main_arg1 : FVec F S128x64 .f32) (main_arg2 : FVec F S128x64 .f32) (main_arg3 : FVec F S64x16384 .f32) (main_arg4 : IVec S128x128x128 32) (main_arg5 : IVec S128x128x128 32) (main_arg6 : IVec S128x30x128 32) : IVec S_ 1 :=
  let main_v0 : FVec F S128x64 .f32 := Host.absf main_arg0
  let main_cst : FVec F S_ .f32 := constant S_ .f32 0x7F800000#32
  let main_v1 : FVec F S128x64 .f32 := broadcastInDim S128x64 ![] bcast_S_S128x64 main_cst
  let main_v2 : IVec S128x64 1 := cmpf .olt main_v0 main_v1
  let main_c : IVec S_ 1 := constantI S_ 1 1#1
  let main_v3 : IVec S_ 1 := (fun x v => Host.reduce IntOp.andi x v reducesTo_S128x64_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg2
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64x16384 .f32 := Host.absf main_arg3
  let main_cst_4 : FVec F S_ .f32 := constant S_ .f32 0x7F800000#32
  let main_v15 : FVec F S64x16384 .f32 := broadcastInDim S64x16384 ![] bcast_S_S64x16384 main_cst_4
  let main_v16 : IVec S64x16384 1 := cmpf .olt main_v14 main_v15
  fn_part1 (F := F) main_arg6 main_v13 main_v16
-- ==== Kernel.lean ====
abbrev S128x64 : Shape := ⟨2, ![128, 64]⟩
abbrev S64x16384 : Shape := ⟨2, ![64, 16384]⟩
abbrev S128x128x128 : Shape := ⟨3, ![128, 128, 128]⟩
abbrev S128x30x128 : Shape := ⟨3, ![128, 30, 128]⟩
abbrev S30x64 : Shape := ⟨2, ![30, 64]⟩
abbrev S30x16384 : Shape := ⟨2, ![30, 16384]⟩
abbrev S64x2048 : Shape := ⟨2, ![64, 2048]⟩
abbrev S30x2048 : Shape := ⟨2, ![30, 2048]⟩
abbrev S30x128x128 : Shape := ⟨3, ![30, 128, 128]⟩
abbrev S30x1x128 : Shape := ⟨3, ![30, 1, 128]⟩
abbrev S1x128x128 : Shape := ⟨3, ![1, 128, 128]⟩
abbrev S1x1x128 : Shape := ⟨3, ![1, 1, 128]⟩
abbrev S128x128 : Shape := ⟨2, ![128, 128]⟩
abbrev S128x128x1 : Shape := ⟨3, ![128, 128, 1]⟩
abbrev S128x1x128 : Shape := ⟨3, ![128, 1, 128]⟩
abbrev S16384x128 : Shape := ⟨2, ![16384, 128]⟩
abbrev S128 : Shape := ⟨1, ![128]⟩
abbrev S1x128 : Shape := ⟨2, ![1, 128]⟩
abbrev S30x128 : Shape := ⟨2, ![30, 128]⟩
abbrev S_ : Shape := ⟨0, ![]⟩

abbrev nBuf : Space → Nat
  | .hbm => 49
  | .vmem => 15
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64, .f32⟩
  | .hbm, ⟨3, _⟩ => ⟨S64x16384, .f32⟩
  | .hbm, ⟨4, _⟩ => ⟨S128x128x128, .i32⟩
  | .hbm, ⟨5, _⟩ => ⟨S128x128x128, .i32⟩
  | .hbm, ⟨6, _⟩ => ⟨S128x30x128, .i32⟩
  | .hbm, ⟨7, _⟩ => ⟨S128x64, .f32⟩
  | .hbm, ⟨8, _⟩ => ⟨S128x64, .f32⟩
  | .hbm, ⟨9, _⟩ => ⟨S128x64, .f32⟩
  | .hbm, ⟨10, _⟩ => ⟨S30x64, .f32⟩
  | .hbm, ⟨11, _⟩ => ⟨S30x16384, .f32⟩
  | .hbm, ⟨12, _⟩ => ⟨S30x128x128, .f32⟩
  | .hbm, ⟨13, _⟩ => ⟨S30x128x128, .i32⟩
  | .hbm, ⟨14, _⟩ => ⟨S30x128x128, .i32⟩
  | .hbm, ⟨15, _⟩ => ⟨S30x128x128, .i32⟩
  | .hbm, ⟨16, _⟩ => ⟨S30x1x128, .f32⟩
  | .hbm, ⟨17, _⟩ => ⟨S30x128, .f32⟩
  | .hbm, ⟨18, _⟩ => ⟨S_, .f32⟩
  | .hbm, ⟨19, _⟩ => ⟨S128, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S128x64, .f32⟩
  | .hbm, ⟨24, _⟩ => ⟨S128x64, .f32⟩
  | .hbm, ⟨25, _⟩ => ⟨S128x64, .f32⟩
  | .hbm, ⟨26, _⟩ => ⟨S128x64, .f32⟩
  | .hbm, ⟨27, _⟩ => ⟨S_, .f32⟩
  | .hbm, ⟨28, _⟩ => ⟨S128x64, .f32⟩
  | .hbm, ⟨29, _⟩ => ⟨S128x64, .f32⟩
  | .hbm, ⟨30, _⟩ => ⟨S_, .f32⟩
  | .hbm, ⟨31, _⟩ => ⟨S128, .f32⟩
  | .hbm, ⟨32, _⟩ => ⟨S_, .f32⟩
  | .hbm, ⟨33, _⟩ => ⟨S128x64, .f32⟩
  | .hbm, ⟨34, _⟩ => ⟨S128x64, .f32⟩
  | .hbm, ⟨35, _⟩ => ⟨S128x64, .f32⟩
  | .hbm, ⟨36, _⟩ => ⟨S_, .f32⟩
  | .hbm, ⟨37, _⟩ => ⟨S128x64, .f32⟩
  | .hbm, ⟨38, _⟩ => ⟨S128x64, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S128, .f32⟩
  | .hbm, ⟨43, _⟩ => ⟨S128, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S30x64, .f32⟩
  | .local _ .vmem, ⟨1, _⟩ => ⟨S64x2048, .f32⟩
  | .local _ .vmem, ⟨2, _⟩ => ⟨S64x2048, .f32⟩
  | .local _ .vmem, ⟨3, _⟩ => ⟨S30x2048, .f32⟩
  | .local _ .vmem, ⟨4, _⟩ => ⟨S30x2048, .f32⟩
  | .local _ .vmem, ⟨5, _⟩ => ⟨S1x128x128, .f32⟩
  | .local _ .vmem, ⟨6, _⟩ => ⟨S1x128x128, .f32⟩
  | .local _ .vmem, ⟨7, _⟩ => ⟨S1x128x128, .i32⟩
  | .local _ .vmem, ⟨8, _⟩ => ⟨S1x128x128, .i32⟩
  | .local _ .vmem, ⟨9, _⟩ => ⟨S1x128x128, .i32⟩
  | .local _ .vmem, ⟨10, _⟩ => ⟨S1x128x128, .i32⟩
  | .local _ .vmem, ⟨11, _⟩ => ⟨S1x128x128, .i32⟩
  | .local _ .vmem, ⟨12, _⟩ => ⟨S1x128x128, .i32⟩
  | .local _ .vmem, ⟨13, _⟩ => ⟨S1x1x128, .f32⟩
  | .local _ .vmem, ⟨14, _⟩ => ⟨S1x1x128, .f32⟩
  | _, _ => ⟨S128x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_cst_8 : Ref sig .tc := ⟨.hbm, 46, rfl⟩
abbrev main_v30 : Ref sig .tc := ⟨.hbm, 47, rfl⟩
abbrev main_v31 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S30x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S64x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S30x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![30], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x128x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x128x128 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128x128 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S128x64_S30x64_0_0 : S128x64.Slices ![0, 0] S30x64
  inb_S30x64_S30x64_0_0 : ∀ a, (![0, 0] : Fin 2 → Nat) a + S30x64.size a ≤ S30x64.size a
  h_S30x64 : 0 < S30x64.numel
  shapeCasts_S30x64_S30x64 : S30x64.ShapeCasts S30x64
  bitsLt_bf16_f32 : FTy.bits .bf16 < FTy.bits .f32
  inb_S64x2048_S64x2048_0_0 : ∀ a, (![0, 0] : Fin 2 → Nat) a + S64x2048.size a ≤ S64x2048.size a
  h_S64x2048 : 0 < S64x2048.numel
  inb_S30x2048_S30x2048_0_0 : ∀ a, (![0, 0] : Fin 2 → Nat) a + S30x2048.size a ≤ S30x2048.size a
  h_S30x2048 : 0 < S30x2048.numel
  shapeCasts_S30x16384_S30x128x128 : S30x16384.ShapeCasts S30x128x128
  slices_S128x128x128_S30x128x128_0_0_0 : S128x128x128.Slices ![0, 0, 0] S30x128x128
  transposes_S128x30x128_S30x128x128_1_0_2 : S128x30x128.Transposes [1, 0, 2] S30x128x128
  inb_S1x128x128_S1x128x128_0_0_0 : ∀ a, (![0, 0, 0] : Fin 3 → Nat) a + S1x128x128.size a ≤ S1x128x128.size a
  h_S1x128x128 : 0 < S1x128x128.numel
  shapeCasts_S1x128x128_S128x128 : S1x128x128.ShapeCasts S128x128
  iota_S128x128x128_d2_w32 : S128x128x128.Iotas .tc 32 [2]
  shapeCasts_S128x128_S128x128x1 : S128x128.ShapeCasts S128x128x1
  broadcasts_S128x128x1_S128x128x128 : S128x128x1.Broadcasts S128x128x128
  natLt_1_32 : 1 < 32
  iota_S128x128x128_d1_w32 : S128x128x128.Iotas .tc 32 [1]
  shapeCasts_S128x128_S128x1x128 : S128x128.ShapeCasts S128x1x128
  broadcasts_S128x1x128_S128x128x128 : S128x1x128.Broadcasts S128x128x128
  shapeCasts_S128x128x128_S16384x128 : S128x128x128.ShapeCasts S16384x128
  shapeCasts_S16384x128_S128x128x128 : S16384x128.ShapeCasts S128x128x128
  shapeCasts_S128x128_S1x128x128 : S128x128.ShapeCasts S1x128x128
  broadcasts_S1x128x128_S128x128x128 : S1x128x128.Broadcasts S128x128x128
  reduces_S128x128x128_S128x128 : S128x128x128.Reduces [2] S128x128
  reduces_S128x128_S128 : S128x128.Reduces [1] S128
  shapeCasts_S128_S1x128 : S128.ShapeCasts S1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x128 : S1x1x128.ShapeCasts S1x128
  shapeCasts_S1x128_S1x1x128 : S1x128.ShapeCasts S1x1x128
  shapeCasts_S30x1x128_S30x128 : S30x1x128.ShapeCasts S30x128
  reducesTo_S30x128_S128_d0 : S30x128.ReducesTo [0] S128
  h_S_ : 0 < S_.numel
  reducesTo_S128_S_d0 : S128.ReducesTo [0] S_
  bcast_S_S128x64 : S_.BroadcastsInDim S128x64 (![] : Fin 0 → Fin S128x64.rank)
  reducesTo_S128x64_S128_d1 : S128x64.ReducesTo [1] S128
  bcast_S_S128 : S_.BroadcastsInDim S128 (![] : Fin 0 → Fin S128.rank)
  dot_S30x64_S64x2048_S30x2048_1_0_0_1_n_n_wf : DotDims.WF S30x64 S64x2048 S30x2048 [1] [0] [0] [1] [] []
  dot_S16384x128_S128x128_S16384x128_1_0_0_1_n_n_wf : DotDims.WF S16384x128 S128x128 S16384x128 [1] [0] [0] [1] [] []
  dot_S128x128x128_S128x128x128_S128x128x128_2_1_1_2_0_0_wf : DotDims.WF S128x128x128 S128x128x128 S128x128x128 [2] [1] [1] [2] [0] [0]
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S30x64.size a ≤ S30x64.size a
  hwx0_0 : ∀ i : grid0.Coords, EltTy.bits .f32 = 32 ∨ (Rect.block (s := S30x64) S30x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x16384.size a
  hwx0_1 : ∀ i : grid0.Coords, EltTy.bits .f32 = 32 ∨ (Rect.block (s := S64x16384) S64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S30x2048.size a ≤ S30x16384.size a
  hwx0_2 : ∀ i : grid0.Coords, EltTy.bits .f32 = 32 ∨ (Rect.block (s := S30x16384) S30x2048.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x128x128.size a ≤ S30x128x128.size a
  hwx1_0 : ∀ i : grid1.Coords, EltTy.bits .f32 = 32 ∨ (Rect.block (s := S30x128x128) S1x128x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x128x128.size a ≤ S30x128x128.size a
  hwx1_1 : ∀ i : grid1.Coords, EltTy.bits .i32 = 32 ∨ (Rect.block (s := S30x128x128) S1x128x128.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x128x128.size a ≤ S30x128x128.size a
  hwx1_2 : ∀ i : grid1.Coords, EltTy.bits .i32 = 32 ∨ (Rect.block (s := S30x128x128) S1x128x128.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x128x128.size a ≤ S30x128x128.size a
  hwx1_3 : ∀ i : grid1.Coords, EltTy.bits .i32 = 32 ∨ (Rect.block (s := S30x128x128) S1x128x128.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x128.size a ≤ S30x1x128.size a
  hwx1_4 : ∀ i : grid1.Coords, EltTy.bits .f32 = 32 ∨ (Rect.block (s := S30x1x128) S1x1x128.size (cc1_transform_4 i) (hinb1_4 i)).WholeWords (EltTy.packing .f32)

variable [Facts₀]

def dot_S30x64_S64x2048_S30x2048_1_0_0_1_n_n : DotDims S30x64 S64x2048 S30x2048 where
  lhsContracting := [1]
  rhsContracting := [0]
  lhsNonContracting := [0]
  rhsNonContracting := [1]
  lhsBatch := []
  rhsBatch := []
  wf := dot_S30x64_S64x2048_S30x2048_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S128x128x128_S128x128x128_S128x128x128_2_1_1_2_0_0 : DotDims S128x128x128 S128x128x128 S128x128x128 where
  lhsContracting := [2]
  rhsContracting := [1]
  lhsNonContracting := [1]
  rhsNonContracting := [2]
  lhsBatch := [0]
  rhsBatch := [0]
  wf := dot_S128x128x128_S128x128x128_S128x128x128_2_1_1_2_0_0_wf

abbrev win0_0 : Pipeline.Window sig grid0 :=
  Pipeline.Window.ofSpec (Memref.whole main_v3) S30x64.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S30x2048.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v5) S1x128x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x128x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x128x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x128x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x1x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S128x64 : Shape := ⟨2, ![128, 64]⟩
abbrev S64x16384 : Shape := ⟨2, ![64, 16384]⟩
abbrev S128x128x128 : Shape := ⟨3, ![128, 128, 128]⟩
abbrev S128x30x128 : Shape := ⟨3, ![128, 30, 128]⟩
abbrev S128x16384 : Shape := ⟨2, ![128, 16384]⟩
abbrev S30x128x128 : Shape := ⟨3, ![30, 128, 128]⟩
abbrev S_ : Shape := ⟨0, ![]⟩
abbrev S128x30x128x1 : Shape := ⟨4, ![128, 30, 128, 1]⟩
abbrev S128x30x128x128 : Shape := ⟨4, ![128, 30, 128, 128]⟩
abbrev S1x30x128x128 : Shape := ⟨4, ![1, 30, 128, 128]⟩
abbrev S128x30 : Shape := ⟨2, ![128, 30]⟩
abbrev S128 : Shape := ⟨1, ![128]⟩

abbrev nBuf : Space → Nat
  | .hbm => 114
  | .vmem => 0
  | .smem => 0
  | _ => 0

abbrev bufTy : (tb : Table) → Fin (tcTables nBuf tb) → BufTy
  | .hbm, ⟨0, _⟩ => ⟨S128x64, .f32⟩
  | .hbm, ⟨1, _⟩ => ⟨S128x64, .f32⟩
  | .hbm, ⟨2, _⟩ => ⟨S128x64, .f32⟩
  | .hbm, ⟨3, _⟩ => ⟨S64x16384, .f32⟩
  | .hbm, ⟨4, _⟩ => ⟨S128x128x128, .i32⟩
  | .hbm, ⟨5, _⟩ => ⟨S128x128x128, .i32⟩
  | .hbm, ⟨6, _⟩ => ⟨S128x30x128, .i32⟩
  | .hbm, ⟨7, _⟩ => ⟨S128x64, .f32⟩
  | .hbm, ⟨8, _⟩ => ⟨S128x64, .f32⟩
  | .hbm, ⟨9, _⟩ => ⟨S128x64, .f32⟩
  | .hbm, ⟨10, _⟩ => ⟨S128x16384, .f32⟩
  | .hbm, ⟨11, _⟩ => ⟨S128x128x128, .f32⟩
  | .hbm, ⟨12, _⟩ => ⟨S30x128x128, .f32⟩
  | .hbm, ⟨13, _⟩ => ⟨S30x128x128, .i32⟩
  | .hbm, ⟨14, _⟩ => ⟨S30x128x128, .f32⟩
  | .hbm, ⟨15, _⟩ => ⟨S30x128x128, .i32⟩
  | .hbm, ⟨16, _⟩ => ⟨S30x128x128, .f32⟩
  | .hbm, ⟨17, _⟩ => ⟨S_, .i32⟩
  | .hbm, ⟨18, _⟩ => ⟨S128x30x128, .i32⟩
  | .hbm, ⟨19, _⟩ => ⟨S128x30x128, .i1⟩
  | .hbm, ⟨20, _⟩ => ⟨S_, .i32⟩
  | .hbm, ⟨21, _⟩ => ⟨S128x30x128, .i32⟩
  | .hbm, ⟨22, _⟩ => ⟨S128x30x128, .i32⟩
  | .hbm, ⟨23, _⟩ => ⟨S128x30x128, .i32⟩
  | .hbm, ⟨24, _⟩ => ⟨S128x30x128x1, .i32⟩
  | .hbm, ⟨25, _⟩ => ⟨S128x30x128x128, .f32⟩
  | .hbm, ⟨26, _⟩ => ⟨S_, .i32⟩
  | .hbm, ⟨27, _⟩ => ⟨S128x30x128, .i32⟩
  | .hbm, ⟨28, _⟩ => ⟨S128x30x128, .i1⟩
  | .hbm, ⟨29, _⟩ => ⟨S_, .i32⟩
  | .hbm, ⟨30, _⟩ => ⟨S128x30x128, .i32⟩
  | .hbm, ⟨31, _⟩ => ⟨S128x30x128, .i32⟩
  | .hbm, ⟨32, _⟩ => ⟨S128x30x128, .i32⟩
  | .hbm, ⟨33, _⟩ => ⟨S128x30x128x1, .i32⟩
  | .hbm, ⟨34, _⟩ => ⟨S128x30x128x128, .f32⟩
  | .hbm, ⟨35, _⟩ => ⟨S128x30x128x128, .f32⟩
  | .hbm, ⟨36, _⟩ => ⟨S_, .f32⟩
  | .hbm, ⟨37, _⟩ => ⟨S128x30x128x128, .f32⟩
  | .hbm, ⟨38, _⟩ => ⟨S128x30x128x128, .f32⟩
  | .hbm, ⟨39, _⟩ => ⟨S128x30x128x128, .f32⟩
  | .hbm, ⟨40, _⟩ => ⟨S128x30x128x128, .f32⟩
  | .hbm, ⟨41, _⟩ => ⟨S128x30x128x128, .i1⟩
  | .hbm, ⟨42, _⟩ => ⟨S128x30x128x128, .f32⟩
  | .hbm, ⟨43, _⟩ => ⟨S128x30x128x128, .f32⟩
  | .hbm, ⟨44, _⟩ => ⟨S128x30x128x128, .f32⟩
  | .hbm, ⟨45, _⟩ => ⟨S128x30x128x128, .f32⟩
  | .hbm, ⟨46, _⟩ => ⟨S128x30x128x128, .f32⟩
  | .hbm, ⟨47, _⟩ => ⟨S128x30x128x128, .f32⟩
  | .hbm, ⟨48, _⟩ => ⟨S128x30x128x128, .f32⟩
  | .hbm, ⟨49, _⟩ => ⟨S128x30x128x128, .f32⟩
  | .hbm, ⟨50, _⟩ => ⟨S128x30x128x128, .f32⟩
  | .hbm, ⟨51, _⟩ => ⟨S1x30x128x128, .f32⟩
  | .hbm, ⟨52, _⟩ => ⟨S128x30x128x128, .f32⟩
  | .hbm, ⟨53, _⟩ => ⟨S128x30x128x128, .f32⟩
  | .hbm, ⟨54, _⟩ => ⟨S_, .f32⟩
  | .hbm, ⟨55, _⟩ => ⟨S30x128x128, .f32⟩
  | .hbm, ⟨56, _⟩ => ⟨S30x128x128, .f32⟩
  | .hbm, ⟨57, _⟩ => ⟨S128x30x128x128, .f32⟩
  | .hbm, ⟨58, _⟩ => ⟨S128x30x128x128, .f32⟩
  | .hbm, ⟨59, _⟩ => ⟨S_, .f32⟩
  | .hbm, ⟨60, _⟩ => ⟨S128x30x128x128, .f32⟩
  | .hbm, ⟨61, _⟩ => ⟨S128x30x128x128, .f32⟩
  | .hbm, ⟨62, _⟩ => ⟨S128x30x128x128, .f32⟩
  | .hbm, ⟨63, _⟩ => ⟨S128x30x128x128, .f32⟩
  | .hbm, ⟨64, _⟩ => ⟨S128x30x128x128, .i1⟩
  | .hbm, ⟨65, _⟩ => ⟨S128x30x128x128, .f32⟩
  | .hbm, ⟨66, _⟩ => ⟨S128x30x128x128, .f32⟩
  | .hbm, ⟨67, _⟩ => ⟨S128x30x128x128, .f32⟩
  | .hbm, ⟨68, _⟩ => ⟨S128x30x128x128, .f32⟩
  | .hbm, ⟨69, _⟩ => ⟨S128x30x128x128, .f32⟩
  | .hbm, ⟨70, _⟩ => ⟨S128x30x128x128, .f32⟩
  | .hbm, ⟨71, _⟩ => ⟨S128x30x128x128, .f32⟩
  | .hbm, ⟨72, _⟩ => ⟨S128x30x128x128, .f32⟩
  | .hbm, ⟨73, _⟩ => ⟨S128x30x128x128, .f32⟩
  | .hbm, ⟨74, _⟩ => ⟨S1x30x128x128, .f32⟩
  | .hbm, ⟨75, _⟩ => ⟨S128x30x128x128, .f32⟩
  | .hbm, ⟨76, _⟩ => ⟨S128x30x128x128, .f32⟩
  | .hbm, ⟨77, _⟩ => ⟨S128x30x128x128, .f32⟩
  | .hbm, ⟨78, _⟩ => ⟨S1x30x128x128, .f32⟩
  | .hbm, ⟨79, _⟩ => ⟨S128x30x128x128, .f32⟩
  | .hbm, ⟨80, _⟩ => ⟨S128x30x128x128, .f32⟩
  | .hbm, ⟨81, _⟩ => ⟨S_, .f32⟩
  | .hbm, ⟨82, _⟩ => ⟨S128x30, .f32⟩
  | .hbm, ⟨83, _⟩ => ⟨S_, .f32⟩
  | .hbm, ⟨84, _⟩ => ⟨S128, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S128x64, .f32⟩
  | .hbm, ⟨89, _⟩ => ⟨S128x64, .f32⟩
  | .hbm, ⟨90, _⟩ => ⟨S128x64, .f32⟩
  | .hbm, ⟨91, _⟩ => ⟨S128x64, .f32⟩
  | .hbm, ⟨92, _⟩ => ⟨S_, .f32⟩
  | .hbm, ⟨93, _⟩ => ⟨S128x64, .f32⟩
  | .hbm, ⟨94, _⟩ => ⟨S128x64, .f32⟩
  | .hbm, ⟨95, _⟩ => ⟨S_, .f32⟩
  | .hbm, ⟨96, _⟩ => ⟨S128, .f32⟩
  | .hbm, ⟨97, _⟩ => ⟨S_, .f32⟩
  | .hbm, ⟨98, _⟩ => ⟨S128x64, .f32⟩
  | .hbm, ⟨99, _⟩ => ⟨S128x64, .f32⟩
  | .hbm, ⟨100, _⟩ => ⟨S128x64, .f32⟩
  | .hbm, ⟨101, _⟩ => ⟨S_, .f32⟩
  | .hbm, ⟨102, _⟩ => ⟨S128x64, .f32⟩
  | .hbm, ⟨103, _⟩ => ⟨S128x64, .f32⟩
  | .hbm, ⟨104, _⟩ => ⟨S_, .f32⟩
  | .hbm, ⟨105, _⟩ => ⟨S128, .f32⟩
  | .hbm, ⟨106, _⟩ => ⟨S128, .f32⟩
  | .hbm, ⟨107, _⟩ => ⟨S128, .f32⟩
  | .hbm, ⟨108, _⟩ => ⟨S128, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S_, .f32⟩
  | _, _ => ⟨S128x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c : Ref sig .tc := ⟨.hbm, 17, rfl⟩
abbrev main_v10 : Ref sig .tc := ⟨.hbm, 18, rfl⟩
abbrev main_v11 : Ref sig .tc := ⟨.hbm, 19, rfl⟩
abbrev main_c_0 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_1 : Ref sig .tc := ⟨.hbm, 26, rfl⟩
abbrev main_v17 : Ref sig .tc := ⟨.hbm, 27, rfl⟩
abbrev main_v18 : Ref sig .tc := ⟨.hbm, 28, rfl⟩
abbrev main_c_2 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_v0 : Ref sig .tc := ⟨.hbm, 35, rfl⟩
abbrev main_call0_call0_cst : Ref sig .tc := ⟨.hbm, 36, rfl⟩
abbrev main_call0_call0_v0 : Ref sig .tc := ⟨.hbm, 37, rfl⟩
abbrev main_call0_call0_v1 : Ref sig .tc := ⟨.hbm, 38, rfl⟩
abbrev main_call0_call0_v2 : Ref sig .tc := ⟨.hbm, 39, rfl⟩
abbrev main_call0_call0_v3 : Ref sig .tc := ⟨.hbm, 40, rfl⟩
abbrev main_call0_call0_v4 : Ref sig .tc := ⟨.hbm, 41, rfl⟩
abbrev main_call0_call0_v5 : Ref sig .tc := ⟨.hbm, 42, rfl⟩
abbrev main_call0_call0_v6 : Ref sig .tc := ⟨.hbm, 43, rfl⟩
abbrev main_call0_call0_v7 : Ref sig .tc := ⟨.hbm, 44, rfl⟩
abbrev main_call0_call0_v8 : Ref sig .tc := ⟨.hbm, 45, rfl⟩
abbrev main_call0_call0_v9 : Ref sig .tc := ⟨.hbm, 46, rfl⟩
abbrev main_call0_call0_v10 : Ref sig .tc := ⟨.hbm, 47, rfl⟩
abbrev main_call0_call0_v11 : Ref sig .tc := ⟨.hbm, 48, rfl⟩
abbrev main_call0_v1 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_cst : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_call1_v0 : Ref sig .tc := ⟨.hbm, 58, rfl⟩
abbrev main_call1_call0_cst : Ref sig .tc := ⟨.hbm, 59, rfl⟩
abbrev main_call1_call0_v0 : Ref sig .tc := ⟨.hbm, 60, rfl⟩
abbrev main_call1_call0_v1 : Ref sig .tc := ⟨.hbm, 61, rfl⟩
abbrev main_call1_call0_v2 : Ref sig .tc := ⟨.hbm, 62, rfl⟩
abbrev main_call1_call0_v3 : Ref sig .tc := ⟨.hbm, 63, rfl⟩
abbrev main_call1_call0_v4 : Ref sig .tc := ⟨.hbm, 64, rfl⟩
abbrev main_call1_call0_v5 : Ref sig .tc := ⟨.hbm, 65, rfl⟩
abbrev main_call1_call0_v6 : Ref sig .tc := ⟨.hbm, 66, rfl⟩
abbrev main_call1_call0_v7 : Ref sig .tc := ⟨.hbm, 67, rfl⟩
abbrev main_call1_call0_v8 : Ref sig .tc := ⟨.hbm, 68, rfl⟩
abbrev main_call1_call0_v9 : Ref sig .tc := ⟨.hbm, 69, rfl⟩
abbrev main_call1_call0_v10 : Ref sig .tc := ⟨.hbm, 70, rfl⟩
abbrev main_call1_call0_v11 : Ref sig .tc := ⟨.hbm, 71, rfl⟩
abbrev main_call1_v1 : Ref sig .tc := ⟨.hbm, 72, rfl⟩
abbrev main_v31 : Ref sig .tc := ⟨.hbm, 73, rfl⟩
abbrev main_v32 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_3 : Ref sig .tc := ⟨.hbm, 81, rfl⟩
abbrev main_v39 : Ref sig .tc := ⟨.hbm, 82, rfl⟩
abbrev main_cst_4 : Ref sig .tc := ⟨.hbm, 83, rfl⟩
abbrev main_v40 : Ref sig .tc := ⟨.hbm, 84, rfl⟩
abbrev main_cst_5 : Ref sig .tc := ⟨.hbm, 85, rfl⟩
abbrev main_v41 : Ref sig .tc := ⟨.hbm, 86, rfl⟩
abbrev main_cst_6 : Ref sig .tc := ⟨.hbm, 87, rfl⟩
abbrev main_v42 : Ref sig .tc := ⟨.hbm, 88, rfl⟩
abbrev main_v43 : Ref sig .tc := ⟨.hbm, 89, rfl⟩
abbrev main_v44 : Ref sig .tc := ⟨.hbm, 90, rfl⟩
abbrev main_v45 : Ref sig .tc := ⟨.hbm, 91, rfl⟩
abbrev main_cst_7 : Ref sig .tc := ⟨.hbm, 92, rfl⟩
abbrev main_v46 : Ref sig .tc := ⟨.hbm, 93, rfl⟩
abbrev main_v47 : Ref sig .tc := ⟨.hbm, 94, rfl⟩
abbrev main_cst_8 : Ref sig .tc := ⟨.hbm, 95, rfl⟩
abbrev main_v48 : Ref sig .tc := ⟨.hbm, 96, rfl⟩
abbrev main_cst_9 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_cst_10 : Ref sig .tc := ⟨.hbm, 101, rfl⟩
abbrev main_v52 : Ref sig .tc := ⟨.hbm, 102, rfl⟩
abbrev main_v53 : Ref sig .tc := ⟨.hbm, 103, rfl⟩
abbrev main_cst_11 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_cst_12 : Ref sig .tc := ⟨.hbm, 109, rfl⟩
abbrev main_v58 : Ref sig .tc := ⟨.hbm, 110, rfl⟩
abbrev main_cst_13 : Ref sig .tc := ⟨.hbm, 111, rfl⟩
abbrev main_v59 : Ref sig .tc := ⟨.hbm, 112, rfl⟩
abbrev main_v60 : Ref sig .tc := ⟨.hbm, 113, rfl⟩

abbrev nD : Nat := 1
abbrev τ : Topo := Topo.v7x

variable {F : FTy → Type} [FloatOps F]

class Facts₀ : Prop where
  shapeCasts_S128x16384_S128x128x128 : S128x16384.ShapeCasts S128x128x128
  slices_S128x128x128_S30x128x128_0_0_0 : S128x128x128.Slices ![0, 0, 0] S30x128x128
  bcast_S_S128x30x128 : S_.BroadcastsInDim S128x30x128 (![] : Fin 0 → Fin S128x30x128.rank)
  bcast_S128x30x128_S128x30x128x1_0_1_2 : S128x30x128.BroadcastsInDim S128x30x128x1 (![0, 1, 2] : Fin 3 → Fin S128x30x128x1.rank)
  bcast_S_S128x30x128x128 : S_.BroadcastsInDim S128x30x128x128 (![] : Fin 0 → Fin S128x30x128x128.rank)
  bcast_S30x128x128_S1x30x128x128_1_2_3 : S30x128x128.BroadcastsInDim S1x30x128x128 (![1, 2, 3] : Fin 3 → Fin S1x30x128x128.rank)
  bcast_S1x30x128x128_S128x30x128x128_0_1_2_3 : S1x30x128x128.BroadcastsInDim S128x30x128x128 (![0, 1, 2, 3] : Fin 4 → Fin S128x30x128x128.rank)
  bcast_S_S30x128x128 : S_.BroadcastsInDim S30x128x128 (![] : Fin 0 → Fin S30x128x128.rank)
  reducesTo_S128x30x128x128_S128x30_d2_3 : S128x30x128x128.ReducesTo [2, 3] S128x30
  h_S_ : 0 < S_.numel
  reducesTo_S128x30_S128_d1 : S128x30.ReducesTo [1] S128
  reducesTo_S128_S_d0 : S128.ReducesTo [0] S_
  bcast_S_S128x64 : S_.BroadcastsInDim S128x64 (![] : Fin 0 → Fin S128x64.rank)
  reducesTo_S128x64_S128_d1 : S128x64.ReducesTo [1] S128
  bcast_S_S128 : S_.BroadcastsInDim S128 (![] : Fin 0 → Fin S128.rank)
  dot_S128x64_S64x16384_S128x16384_1_0_0_1_n_n_wf : DotDims.WF S128x64 S64x16384 S128x16384 [1] [0] [0] [1] [] []
  gather_S30x128x128_S128x30x128x1_S128x30x128x128_3_1_0_1_1_3_11128_wf : GatherDims.WF S30x128x128 S128x30x128x1 S128x30x128x128 [3] [1] [0] [1] [1] 3 ![1, 1, 128]
  gather_S128x30x128x128_S128x30x128x1_S128x30x128x128_2_3_01_01_3_3_111281_wf : GatherDims.WF S128x30x128x128 S128x30x128x1 S128x30x128x128 [2] [3] [0, 1] [3] [0, 1] 3 ![1, 1, 128, 1]

variable [Facts₀]

def dot_S128x64_S64x16384_S128x16384_1_0_0_1_n_n : DotDims S128x64 S64x16384 S128x16384 where
  lhsContracting := [1]
  rhsContracting := [0]
  lhsNonContracting := [0]
  rhsNonContracting := [1]
  lhsBatch := []
  rhsBatch := []
  wf := dot_S128x64_S64x16384_S128x16384_1_0_0_1_n_n_wf
def gather_S30x128x128_S128x30x128x1_S128x30x128x128_3_1_0_1_1_3_11128 : GatherDims S30x128x128 S128x30x128x1 S128x30x128x128 where
  offsetDims := [3]
  collapsedSliceDims := [1]
  operandBatchingDims := [0]
  startIndicesBatchingDims := [1]
  startIndexMap := [1]
  indexVectorDim := 3
  sliceSizes := ![1, 1, 128]
  wf := gather_S30x128x128_S128x30x128x1_S128x30x128x128_3_1_0_1_1_3_11128_wf
def gather_S128x30x128x128_S128x30x128x1_S128x30x128x128_2_3_01_01_3_3_111281 : GatherDims S128x30x128x128 S128x30x128x1 S128x30x128x128 where
  offsetDims := [2]
  collapsedSliceDims := [3]
  operandBatchingDims := [0, 1]
  startIndicesBatchingDims := [0, 1]
  startIndexMap := [3]
  indexVectorDim := 3
  sliceSizes := ![1, 1, 128, 1]
  wf := gather_S128x30x128x128_S128x30x128x1_S128x30x128x128_2_3_01_01_3_3_111281_wf

class Facts : Prop extends Facts₀ where

variable [Facts]
-- ==== Proof.Spec.lean ====
/-
  The mathematics of this certificate, over plain index functions on the extended reals; no program is imported.

  The model scores 30 graphs against 128 node relabellings each. Graph `j` has a 128 × 128 table of Bernoulli
  logits `L j` (row `j` of the latent sample times the decoder matrix), an adjacency table `A j` and a mask `M j`
  (integer words, read as the reals they denote). For relabelling `i` of graph `j`, given by the index words
  `p a` (a = 0 … 127), the score is

      ∑ a, ∑ d,  (A j a d · ls (x a d) + (1 − A j a d) · ls (−x a d)) · M j a d,     x a d = L j (p a) (p d),

  with `ls` the log-sigmoid in its overflow-free form `ls x = −(max (−x) 0 + log (1 + exp (−|x|)))`.
  One program computes exactly this sum (`recRef`); the other first gathers rows and columns by multiplying with
  0/1 matrices whose row `a` has its single one in column `p a`, and uses `ls (−x) = ls x − x` to apply `ls` once
  per graph instead of once per relabelling (`recKer`). The two agree when every index word lies in 0 … 127 and
  the logits are real numbers (`Proof/Algebra.lean`). What follows the scores is the same arithmetic in both
  programs (`scoreTail`).
-/
import Idealize.ShloMosaic.PureOps.Ideal
import Idealize.ShloMosaic.PureOps.Ideal.Laws
import Idealize.ShloMosaic.Lib.ValueIdx

noncomputable section

namespace Cert.VAE

open Idealize.ShloMosaic Idealize.ShloMosaic.ValueIdx

abbrev S_ : Shape := ⟨0, ![]⟩
abbrev S128 : Shape := ⟨1, ![128]⟩
abbrev S128x64 : Shape := ⟨2, ![128, 64]⟩
abbrev S30x64 : Shape := ⟨2, ![30, 64]⟩
abbrev S64x16384 : Shape := ⟨2, ![64, 16384]⟩
abbrev S30x16384 : Shape := ⟨2, ![30, 16384]⟩
abbrev S128x16384 : Shape := ⟨2, ![128, 16384]⟩
abbrev S30x128 : Shape := ⟨2, ![30, 128]⟩
abbrev S128x30 : Shape := ⟨2, ![128, 30]⟩
abbrev S128x128x128 : Shape := ⟨3, ![128, 128, 128]⟩
abbrev S128x30x128 : Shape := ⟨3, ![128, 30, 128]⟩
abbrev S30x128x128 : Shape := ⟨3, ![30, 128, 128]⟩
abbrev S30x1x128 : Shape := ⟨3, ![30, 1, 128]⟩

/-! ## Scalars -/

/-- An integer word as the real number it denotes, signed. -/
def mf (b : BitVec 32) : EReal := ((b.toInt : ℝ) : EReal)

/-- The float word of 1.0, as both programs carry it. -/
def oneF : EReal := Ideal.ofBits .f32 0x3F800000#32

/-- Entry `e` of the 0/1 row that selects position `p`: one where `e` is the number the word `p` holds. -/
def oh (p : BitVec 32) (e : Fin 128) : EReal := if p = BitVec.ofNat 32 e.val then 1 else 0

/-- The log-sigmoid on the reals, overflow-free form. -/
def lsR (r : ℝ) : ℝ := -(max (-r) 0 + Real.log (1 + Real.exp (-|r|)))

/-- The log-sigmoid as the first program spells it on extended reals: `0 − softplus (0 − x)`, the softplus of `y`
    being `max y 0 + log1p (exp (0 − |y − 0|))` unless `y − 0` differs from itself (it never does). -/
def lsigK (x : EReal) : EReal :=
  0 - Scalar.select (Ideal.cmp .one ((0 - x) - 0) ((0 - x) - 0)) ((0 - x) + 0)
        (max (0 - x) 0 + Ideal.log1p (Ideal.exp (0 - max ((0 - x) - 0) (-((0 - x) - 0)))))

/-- The same function as the second program spells it: `−softplus (−x)`. -/
def lsigR (x : EReal) : EReal :=
  -(Scalar.select (Ideal.cmp .une ((-x) - 0) ((-x) - 0)) ((-x) + 0)
      (max (-x) 0 + Ideal.log1p (Ideal.exp (-(max ((-x) - 0) (-((-x) - 0)))))))

/-- The position an index word selects in a table of 128 rows under array-indexing rules: a negative word counts
    from the end, and the outcome is clamped into 0 … 127. -/
def gIdx (p : BitVec 32) : Fin 128 :=
  ⟨min (Scalar.select (IntOp.cmpi .slt p 0#32) (p + 128#32) p).toInt.toNat 127, by omega⟩

/-! ## The decoder's logits -/

/-- Column `r · 128 + c` of the flattened 128 × 128 table. -/
def flat (r c : Fin 128) : Fin 16384 := ⟨r.val * 128 + c.val, by have := r.isLt; have := c.isLt; omega⟩

/-- Row `j` of the first 30 rows, as a row of all 128. -/
def row30 (j : Fin 30) : Fin 128 := ⟨j.val, by have := j.isLt; omega⟩

/-- The latent sample `z = mu + eps · exp logstd`, elementwise. -/
def zOf (mu ls ep : S128x64.Idx → EReal) : S128x64.Idx → EReal :=
  addf (F := Ideal) (φ := .f32) mu (mulf (F := Ideal) (φ := .f32) ep (Host.exp (F := Ideal) (φ := .f32) ls))

/-- Logit (r, c) of graph `j`: row `j` of `z` against column `r · 128 + c` of the decoder matrix. -/
def logitAt (z : S128x64.Idx → EReal) (W : S64x16384.Idx → EReal) (j : Fin 30) (r c : Fin 128) : EReal :=
  ∑ k : Fin 64, z (ix2 (row30 j) k) * W (ix2 k (flat r c))

def logitOf (z : S128x64.Idx → EReal) (W : S64x16384.Idx → EReal) : S30x128x128.Idx → EReal :=
  fun y => logitAt z W (y 0) (y 1) (y 2)

/-- The 30 × 16384 product of 30 rows of the sample with the decoder matrix, before it is cut into tables. -/
def prod30 (zp : S30x64.Idx → EReal) (W : S64x16384.Idx → EReal) : S30x16384.Idx → EReal :=
  fun y => ∑ k : Fin 64, zp (ix2 (y 0) k) * W (ix2 k (y 1))

/-! ## One graph against one relabelling, in the two programs' forms -/

/-- Gathering by 0/1 matrices, the log-sigmoid applied before the gather, `ls (−x)` replaced by `ls x − x`.
    `P` holds the index words graph-major: `P (j, i, a)` is word `a` of relabelling `i` of graph `j`. -/
def recKer (L : S30x128x128.Idx → EReal) (A M P : S30x128x128.Idx → BitVec 32) (j : Fin 30) (i : Fin 128) : EReal :=
  ∑ a : Fin 128,
    ((∑ d : Fin 128,
        (∑ c : Fin 128, (∑ e : Fin 128, oh (P (ix3 j i a)) e * lsigK (L (ix3 j e c))) * oh (P (ix3 j i d)) c)
          * mf (M (ix3 j a d)))
      - ∑ d : Fin 128,
        (∑ c : Fin 128, (∑ e : Fin 128, oh (P (ix3 j i a)) e * L (ix3 j e c)) * oh (P (ix3 j i d)) c)
          * (mf (M (ix3 j a d)) * (oneF - mf (A (ix3 j a d)))))

/-- Indexing the table directly, both log-sigmoids applied after it. `Pm` holds the index words relabelling-major:
    `Pm (i, j, a)`. -/
def recRef (L : S30x128x128.Idx → EReal) (A M : S30x128x128.Idx → BitVec 32) (Pm : S128x30x128.Idx → BitVec 32)
    (i : Fin 128) (j : Fin 30) : EReal :=
  ∑ a : Fin 128, ∑ d : Fin 128,
    (mf (A (ix3 j a d)) * lsigR (L (ix3 j (gIdx (Pm (ix3 i j a))) (gIdx (Pm (ix3 i j d)))))
      + (oneF - mf (A (ix3 j a d))) * lsigR (-(L (ix3 j (gIdx (Pm (ix3 i j a))) (gIdx (Pm (ix3 i j d)))))))
    * mf (M (ix3 j a d))

/-! ## After the scores -/

/-- From the 30 × 128 scores laid graph-major: for each relabelling the best graph, summed over relabellings. -/
def bestSumK (h0 : S30x128.ReducesTo [0] S128) (h1 : S128.ReducesTo [0] S_) (hz : 0 < S_.numel)
    (X : S30x128.Idx → EReal) : S_.Idx → EReal :=
  Host.reduceAdd (F := Ideal) (φ := .f32)
    (Host.reduce (FloatOps.maximumf (F := Ideal) (φ := .f32)) X (constant (F := Ideal) S_ .f32 0xFF800000#32) h0 hz)
    (constant (F := Ideal) S_ .f32 0x00000000#32) h1 hz

/-- The same from the scores laid relabelling-major (128 × 30). -/
def bestSumR (h0 : S128x30.ReducesTo [1] S128) (h1 : S128.ReducesTo [0] S_) (hz : 0 < S_.numel)
    (Y : S128x30.Idx → EReal) : S_.Idx → EReal :=
  Host.reduceAdd (F := Ideal) (φ := .f32)
    (Host.reduce (FloatOps.maximumf (F := Ideal) (φ := .f32)) Y (constant (F := Ideal) S_ .f32 0xFF800000#32) h0 hz)
    (constant (F := Ideal) S_ .f32 0x00000000#32) h1 hz

/-- What both programs do with the summed score `RE`: subtract from it, per sample, the difference of the two
    Gaussian log-densities (of the noise under the posterior, of the latent under the prior), average over the 128
    samples, and negate. The shape facts the operations take are arguments. -/
def scoreTail (hb : S_.BroadcastsInDim S128x64 (![] : Fin 0 → Fin S128x64.rank)) (hr : S128x64.ReducesTo [1] S128)
    (hb1 : S_.BroadcastsInDim S128 (![] : Fin 0 → Fin S128.rank)) (h1 : S128.ReducesTo [0] S_) (hz : 0 < S_.numel)
    (RE : S_.Idx → EReal) (z ls ep : S128x64.Idx → EReal) : S_.Idx → EReal :=
  let half : FVec Ideal S128x64 .f32 := broadcastInDim S128x64 ![] hb (constant (F := Ideal) S_ .f32 0xBF000000#32)
  let lg : FVec Ideal S128x64 .f32 := broadcastInDim S128x64 ![] hb (constant (F := Ideal) S_ .f32 0x3F6B3F8E#32)
  let zero : FVec Ideal S_ .f32 := constant (F := Ideal) S_ .f32 0x00000000#32
  let q : FVec Ideal S128 .f32 :=
    Host.reduceAdd (F := Ideal) (φ := .f32) (subf (subf (mulf (mulf half ep) ep) ls) lg) zero hr hz
  let p : FVec Ideal S128 .f32 :=
    Host.reduceAdd (F := Ideal) (φ := .f32) (subf (mulf (mulf half z) z) lg) zero hr hz
  let kl : FVec Ideal S128 .f32 := subf q p
  let tot : FVec Ideal S_ .f32 :=
    Host.reduceAdd (F := Ideal) (φ := .f32) (subf (broadcastInDim S128 ![] hb1 RE) kl) zero h1 hz
  Host.negf (F := Ideal) (φ := .f32) (Host.divf (F := Ideal) (φ := .f32) tot (constant (F := Ideal) S_ .f32 0x43000000#32))

end Cert.VAE

end
-- ==== Proof.RDefs.lean ====
/-
  The second program's score array, as the composition of its own operations: from the logits `L` of the 30 graphs,
  the adjacency and mask words and the index words, the 128 × 30 array whose entry (i, j) scores graph `j` under
  relabelling `i`. Rows and columns are picked by two gathers (negative index words first shifted by 128, as array
  indexing does); the log-sigmoid is `−softplus (−x)`; the sum runs over both table axes at once.
-/
import proofs.«414202_j22780506538221_3_alg».proof.ReferenceIdeal
import proofs.«414202_j22780506538221_3_alg».proof.Proof.Gen.ReferenceIdeal
import proofs.«414202_j22780506538221_3_alg».proof.Proof.Spec

noncomputable section

namespace Cert.ReferenceIdeal.Val

open Cert.ReferenceIdeal Cert.ReferenceIdeal.Gen Idealize.ShloMosaic

/-- `softplus y = max y 0 + log1p (exp (−|y − 0|))`, guarded by a test that `y − 0` equals itself. -/
def softplusV (y : FVec Ideal S128x30x128x128 .f32) : FVec Ideal S128x30x128x128 .f32 :=
  select (cmpf .une (subf y (broadcastInDim S128x30x128x128 ![] bcast_S_S128x30x128x128 (constant (F := Ideal) S_ .f32 0x00000000#32)))
      (subf y (broadcastInDim S128x30x128x128 ![] bcast_S_S128x30x128x128 (constant (F := Ideal) S_ .f32 0x00000000#32))))
    (addf y (broadcastInDim S128x30x128x128 ![] bcast_S_S128x30x128x128 (constant (F := Ideal) S_ .f32 0x00000000#32)))
    (addf (maximumf y (broadcastInDim S128x30x128x128 ![] bcast_S_S128x30x128x128 (constant (F := Ideal) S_ .f32 0x00000000#32)))
      (Host.log1p (Host.exp (Host.negf (Host.absf
        (subf y (broadcastInDim S128x30x128x128 ![] bcast_S_S128x30x128x128 (constant (F := Ideal) S_ .f32 0x00000000#32))))))))

/-- `log_sigmoid x = −softplus (−x)`. -/
def lsigV (x : FVec Ideal S128x30x128x128 .f32) : FVec Ideal S128x30x128x128 .f32 :=
  Host.negf (softplusV (Host.negf x))

/-- The index words as start indices: a negative word shifted by 128, then a trailing unit axis. -/
def startIdx (Pm : IVec S128x30x128 32) : IVec S128x30x128x1 32 :=
  broadcastInDim S128x30x128x1 ![0, 1, 2] bcast_S128x30x128_S128x30x128x1_0_1_2
    (select (cmpi .slt Pm (broadcastInDim S128x30x128 ![] bcast_S_S128x30x128 (constantI S_ 32 0#32)))
      (addi Pm (broadcastInDim S128x30x128 ![] bcast_S_S128x30x128 (constantI S_ 32 128#32))) Pm)

/-- Rows, then columns, of every graph's table picked by the index words: entry (i, j, a, d) is `L j (p a) (p d)`. -/
def permuted (L : FVec Ideal S30x128x128 .f32) (Pm : IVec S128x30x128 32) : FVec Ideal S128x30x128x128 .f32 :=
  Host.gather gather_S128x30x128x128_S128x30x128x1_S128x30x128x128_2_3_01_01_3_3_111281
    (Host.gather gather_S30x128x128_S128x30x128x1_S128x30x128x128_3_1_0_1_1_3_11128 L (startIdx Pm)) (startIdx Pm)

/-- A per-graph table repeated for every relabelling. -/
def perRelabel (T : FVec Ideal S30x128x128 .f32) : FVec Ideal S128x30x128x128 .f32 :=
  broadcastInDim S128x30x128x128 ![0, 1, 2, 3] bcast_S1x30x128x128_S128x30x128x128_0_1_2_3
    (broadcastInDim S1x30x128x128 ![1, 2, 3] bcast_S30x128x128_S1x30x128x128_1_2_3 T)

/-- The score array. -/
def recArr (L : FVec Ideal S30x128x128 .f32) (Aw Mw : IVec S30x128x128 32) (Pm : IVec S128x30x128 32) : FVec Ideal S128x30 .f32 :=
  Host.reduceAdd (F := Ideal) (φ := .f32)
    (mulf
      (addf (mulf (perRelabel (sitofp .f32 Aw)) (lsigV (permuted L Pm)))
        (mulf (perRelabel (subf (broadcastInDim S30x128x128 ![] bcast_S_S30x128x128 (constant (F := Ideal) S_ .f32 0x3F800000#32)) (sitofp .f32 Aw)))
          (lsigV (Host.negf (permuted L Pm)))))
      (perRelabel (sitofp .f32 Mw)))
    (constant (F := Ideal) S_ .f32 0x00000000#32) reducesTo_S128x30x128x128_S128x30_d2_3 h_S_

/-- The second program's result as one function of its seven arguments: the sample, the logits of the first 30
    graphs (all 128 rows are multiplied, then 30 kept), the scores, and the shared closing arithmetic. -/
def refOut (a0 a1 a2 : FVec Ideal S128x64 .f32) (a3 : FVec Ideal S64x16384 .f32) (a4 a5 : IVec S128x128x128 32)
    (a6 : IVec S128x30x128 32) : FVec Ideal S_ .f32 :=
  VAE.scoreTail bcast_S_S128x64 reducesTo_S128x64_S128_d1 bcast_S_S128 reducesTo_S128_S_d0 h_S_
    (VAE.bestSumR reducesTo_S128x30_S128_d1 reducesTo_S128_S_d0 h_S_
      (recArr
        (extractStridedSlice S30x128x128 ![0, 0, 0]
          (shapeCast S128x128x128
            (Host.dotGeneral (φ₁ := .f32) dot_S128x64_S64x16384_S128x16384_1_0_0_1_n_n none (VAE.zOf a0 a1 a2) a3)
            shapeCasts_S128x16384_S128x128x128)
          slices_S128x128x128_S30x128x128_0_0_0)
        (extractStridedSlice S30x128x128 ![0, 0, 0] a4 slices_S128x128x128_S30x128x128_0_0_0)
        (extractStridedSlice S30x128x128 ![0, 0, 0] a5 slices_S128x128x128_S30x128x128_0_0_0)
        a6))
    (VAE.zOf a0 a1 a2) a1 a2

end Cert.ReferenceIdeal.Val

end
-- ==== Proof.Bridge.lean ====
/- The best-graph sum does not depend on which way the score array is laid out: taken down the first axis of a
   30 × 128 array or along the second axis of its 128 × 30 transpose, each relabelling's maximum runs over the same
   30 numbers, and the 128 maxima are then summed alike. -/
import proofs.«414202_j22780506538221_3_alg».proof.Proof.Spec
import Idealize.ShloMosaic.PureOps.Ideal.Laws
import Idealize.ShloMosaic.PureOps.Reduce

noncomputable section

namespace Cert.VAE

open Idealize.ShloMosaic Idealize.ShloMosaic.ValueIdx

theorem bestSum_eq (h0 : S30x128.ReducesTo [0] S128) (h0' : S128x30.ReducesTo [1] S128) (h1 : S128.ReducesTo [0] S_)
    (hz : 0 < S_.numel) (X : S30x128.Idx → EReal) (Y : S128x30.Idx → EReal)
    (hXY : ∀ (j : Fin 30) (i : Fin 128), X (ix2 j i) = Y (ix2 i j)) :
    bestSumK h0 h1 hz X = bestSumR h0' h1 hz Y := by
  unfold bestSumK bestSumR
  congr 1
  funext i'
  have hk : S30x128.Reduces [0] S128 := by decide
  have hr : S128x30.Reduces [1] S128 := by decide
  rw [Host.reduce_eq_fold_single (FloatOps.maximumf (F := Ideal) (φ := .f32)) X _ h0 hk hz i',
    Host.reduce_eq_fold_single (FloatOps.maximumf (F := Ideal) (φ := .f32)) Y _ h0' hr hz i']
  refine congrArg (fun f => (Finset.univ : Finset (Fin 30)).fold (FloatOps.maximumf (F := Ideal) (φ := .f32)) _ f) ?_
  funext k
  show X (hk.lift i' k) = Y (hr.lift i' k)
  have e1 : hk.lift i' k = ix2 k (i' 0) := by
    funext a; match a with | ⟨0, _⟩ => exact Fin.ext rfl | ⟨1, _⟩ => exact Fin.ext rfl
  have e2 : hr.lift i' k = ix2 (i' 0) k := by
    funext a; match a with | ⟨0, _⟩ => exact Fin.ext rfl | ⟨1, _⟩ => exact Fin.ext rfl
  rw [e1, e2]
  exact hXY k (i' 0)

end Cert.VAE

end
-- ==== Proof.Logits.lean ====
/- The first program's logits: the 30 × 16384 product of the first 30 rows of the sample with the decoder matrix,
   cut row-major into 30 tables of 128 × 128, is `logitOf` — entry (r, c) of table `j` is column `r · 128 + c`. -/
import proofs.«414202_j22780506538221_3_alg».proof.Proof.Spec
import Idealize.ShloMosaic.Lib.Pipeline.Value

noncomputable section

namespace Cert.VAE

open Idealize.ShloMosaic Idealize.ShloMosaic.ValueIdx

theorem logits_of_prod30 (z : S128x64.Idx → EReal) (W : S64x16384.Idx → EReal) (hs : S128x64.Slices ![0, 0] S30x64)
    (hc : S30x16384.ShapeCasts S30x128x128) :
    shapeCast S30x128x128 (prod30 (extractStridedSlice S30x64 ![0, 0] z hs) W) hc = logitOf z W := by
  funext y
  obtain ⟨j, r, c, rfl⟩ : ∃ (j : Fin 30) (r c : Fin 128), y = ix3 j r c := ⟨y 0, y 1, y 2, eq_ix3 y⟩
  rw [shapeCast_apply _ hc (ix3 j r c) (ix2 j (flat r c)) (by
    rw [Shape.rowMajor_val_two, Shape.rowMajor_val_three]
    show j.val * 16384 + (r.val * 128 + c.val) = (j.val * 128 + r.val) * 128 + c.val
    omega)]
  show ∑ k : Fin 64, extractStridedSlice S30x64 ![0, 0] z hs (ix2 j k) * W (ix2 k (flat r c))
      = ∑ k : Fin 64, z (ix2 (row30 j) k) * W (ix2 k (flat r c))
  refine Finset.sum_congr rfl fun k _ => ?_
  rw [extractStridedSlice_apply ![0, 0] z hs (ix2 j k) (ix2 (row30 j) k) (fun a => by
    match a with
    | ⟨0, _⟩ => show j.val = 0 + j.val; omega
    | ⟨1, _⟩ => show k.val = 0 + k.val; omega)]

end Cert.VAE

end
-- ==== Proof.LogitsR.lean ====
/- The second program's logits: all 128 rows of the sample are multiplied with the decoder matrix, the product is cut
   row-major into 128 tables of 128 × 128, and the first 30 tables are kept: `logitOf` again. A matrix product read
   at an entry is the sum over the one contracted axis. -/
import proofs.«414202_j22780506538221_3_alg».proof.Proof.RDefs
import Idealize.ShloMosaic.Lib.Pipeline.Value
import Idealize.ShloMosaic.Lib.ValueIdx
import Idealize.ShloMosaic.PureOps.Ideal.Laws

noncomputable section

namespace Cert.ReferenceIdeal.Val
open Cert.ReferenceIdeal Cert.ReferenceIdeal.Gen Idealize.ShloMosaic Idealize.ShloMosaic.ValueIdx

theorem dot_lhs_0 (j : S128x16384.Idx) (k : dot_S128x64_S64x16384_S128x16384_1_0_0_1_n_n.contr.Idx) :
    (dot_S128x64_S64x16384_S128x16384_1_0_0_1_n_n.lhsIdx j k 0).val = (j 0).val := by
  unfold DotDims.lhsIdx
  rw [dif_neg (show ¬(0 : Fin S128x64.rank) ∈ dot_S128x64_S64x16384_S128x16384_1_0_0_1_n_n.lhsBatch by decide),
    dif_pos (show (0 : Fin S128x64.rank) ∈ dot_S128x64_S64x16384_S128x16384_1_0_0_1_n_n.lhsNonContracting by decide)]
  rfl

theorem dot_lhs_1 (j : S128x16384.Idx) (k : dot_S128x64_S64x16384_S128x16384_1_0_0_1_n_n.contr.Idx) :
    (dot_S128x64_S64x16384_S128x16384_1_0_0_1_n_n.lhsIdx j k 1).val = (k ⟨0, by decide⟩).val :=
  DotDims.lhsIdx_val_of_single _ rfl j k

theorem dot_rhs_0 (j : S128x16384.Idx) (k : dot_S128x64_S64x16384_S128x16384_1_0_0_1_n_n.contr.Idx) :
    (dot_S128x64_S64x16384_S128x16384_1_0_0_1_n_n.rhsIdx j k 0).val = (k ⟨0, by decide⟩).val :=
  DotDims.rhsIdx_val_of_single _ rfl j k

theorem dot_rhs_1 (j : S128x16384.Idx) (k : dot_S128x64_S64x16384_S128x16384_1_0_0_1_n_n.contr.Idx) :
    (dot_S128x64_S64x16384_S128x16384_1_0_0_1_n_n.rhsIdx j k 1).val = (j 1).val := by
  unfold DotDims.rhsIdx
  rw [dif_neg (show ¬(1 : Fin S64x16384.rank) ∈ dot_S128x64_S64x16384_S128x16384_1_0_0_1_n_n.rhsBatch by decide),
    dif_pos (show (1 : Fin S64x16384.rank) ∈ dot_S128x64_S64x16384_S128x16384_1_0_0_1_n_n.rhsNonContracting by decide)]
  rfl

/-- The whole product read at (r, n): the sum over the 64 latent coordinates. -/
theorem dot_apply (z : FVec Ideal S128x64 .f32) (W : FVec Ideal S64x16384 .f32) (r : Fin 128) (n : Fin 16384) :
    Host.dotGeneral dot_S128x64_S64x16384_S128x16384_1_0_0_1_n_n none z W (ix2 r n) = ∑ k : Fin 64, z (ix2 r k) * W (ix2 k n) := by
  simp only [Host.dotGeneral]
  rw [Ideal.dotGeneral_apply]
  rw [← Equiv.sum_comp (contrEquiv1 dot_S128x64_S64x16384_S128x16384_1_0_0_1_n_n 64 rfl rfl).symm]
  refine Finset.sum_congr rfl fun k _ => ?_
  congr 2
  · funext a
    match a with
    | ⟨0, _⟩ => exact Fin.ext (dot_lhs_0 _ _)
    | ⟨1, _⟩ => exact Fin.ext ((dot_lhs_1 _ _).trans (contrEquiv1_symm_val _ 64 rfl rfl k))
  · funext a
    match a with
    | ⟨0, _⟩ => exact Fin.ext ((dot_rhs_0 _ _).trans (contrEquiv1_symm_val _ 64 rfl rfl k))
    | ⟨1, _⟩ => exact Fin.ext (dot_rhs_1 _ _)

/-- The first 30 tables of the reshaped product are `logitOf`. -/
theorem logits_ref (z : FVec Ideal S128x64 .f32) (W : FVec Ideal S64x16384 .f32) :
    extractStridedSlice S30x128x128 ![0, 0, 0]
      (shapeCast S128x128x128 (Host.dotGeneral (φ₁ := .f32) dot_S128x64_S64x16384_S128x16384_1_0_0_1_n_n none z W) shapeCasts_S128x16384_S128x128x128)
      slices_S128x128x128_S30x128x128_0_0_0 = VAE.logitOf z W := by
  funext y
  obtain ⟨j, r, c, rfl⟩ : ∃ (j : Fin 30) (r c : Fin 128), y = ix3 j r c := ⟨y 0, y 1, y 2, eq_ix3 y⟩
  rw [extractStridedSlice_apply _ _ _ (ix3 j r c) (ix3 (VAE.row30 j) r c) (fun a => by
    match a with
    | ⟨0, _⟩ => show j.val = 0 + j.val; omega
    | ⟨1, _⟩ => show r.val = 0 + r.val; omega
    | ⟨2, _⟩ => show c.val = 0 + c.val; omega)]
  rw [shapeCast_apply _ _ (ix3 (VAE.row30 j) r c) (ix2 (VAE.row30 j) (VAE.flat r c)) (by
    rw [Shape.rowMajor_val_two, Shape.rowMajor_val_three]
    show j.val * 16384 + (r.val * 128 + c.val) = (j.val * 128 + r.val) * 128 + c.val
    omega)]
  rw [dot_apply]
  rfl

end Cert.ReferenceIdeal.Val

end
-- ==== Proof.PreFacts.lean ====
/- What the precondition says, decoded: each of the four float inputs holds real numbers (its absolute values lie
   below +∞), and every index word lies in 0 … 127. -/
import proofs.«414202_j22780506538221_3_alg».proof.Pre_finite_inputs
import proofs.«414202_j22780506538221_3_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.Proof.PreFacts

open Cert.Pre_finite_inputs Cert.Pre_finite_inputs.Gen Idealize.ShloMosaic Idealize.ShloMosaic.ValueIdx

/-- The scalar shape has exactly one index. -/
private instance : Subsingleton S_.Idx := ⟨fun a b => funext fun d => d.elim0⟩

/-- The float word 0x7F800000 (sign 0, exponent all ones, fraction 0) denotes `+∞`. -/
private theorem inf_word : (Ideal.ofBits .f32 0x7F800000#32 : EReal) = ⊤ := by
  simp [Ideal.ofBits, Ideal.ieee]

/-- An extended real whose absolute value `max x (−x)` lies strictly below `+∞` is a real number: at `⊥` and at
    `⊤` that maximum is `⊤`. -/
private theorem real_of_abs_lt (x : EReal)
    (hx : Ideal.cmp .olt (max x (-x)) (Ideal.ofBits .f32 0x7F800000#32) = 1#1) : ∃ r : ℝ, x = (r : EReal) := by
  rw [inf_word] at hx
  have hlt : max x (-x) < ⊤ := by
    simpa [Ideal.cmp, StableHlo.Predicate.ofBool_eq_one_iff] using hx
  induction x using EReal.rec with
  | bot => simp at hlt
  | coe r => exact ⟨r, rfl⟩
  | top => simp at hlt

/-- "All absolute values of `a` lie below `+∞`", spelt as a reduction by `and` of the elementwise comparison against
    the broadcast `+∞`: when its one word is 1, every element of `a` is a real number. -/
private theorem real_of_all {s : Shape} {axes : List (Fin s.rank)} (a : FVec Ideal s .f32)
    (hb : S_.BroadcastsInDim s (![] : Fin 0 → Fin s.rank)) (hr : s.ReducesTo axes S_) (hz : 0 < S_.numel)
    (e : Host.reduce IntOp.andi
          (cmpf .olt (Host.absf a) (broadcastInDim s ![] hb (constant (F := Ideal) S_ .f32 0x7F800000#32)))
          (constantI S_ 1 1#1) hr hz ix0 = 1#1) (y : s.Idx) : ∃ r : ℝ, a y = (r : EReal) :=
  real_of_abs_lt (a y) (Host.reduce_andi_all _ _ hr hz ix0 e y)

/-- "Every word of `p` is at least 0 and below 128", spelt as a reduction by `and` of the conjunction of two signed
    comparisons against broadcast constants: when its one word is 1, every word's signed value lies in 0 … 127. -/
private theorem range_of_all {s : Shape} {axes : List (Fin s.rank)} (p : IVec s 32)
    (hb : S_.BroadcastsInDim s (![] : Fin 0 → Fin s.rank)) (hr : s.ReducesTo axes S_) (hz : 0 < S_.numel)
    (e : Host.reduce IntOp.andi
          (andi (cmpi .sge p (broadcastInDim s ![] hb (constantI S_ 32 0#32)))
            (cmpi .slt p (broadcastInDim s ![] hb (constantI S_ 32 128#32))))
          (constantI S_ 1 1#1) hr hz ix0 = 1#1) (y : s.Idx) : 0 ≤ (p y).toInt ∧ (p y).toInt < 128 := by
  obtain ⟨hge, hlt⟩ := IntOp.andi_eq_one.1 (Host.reduce_andi_all _ _ hr hz ix0 e y)
  have h0 : (0#32 : BitVec 32).toInt ≤ (p y).toInt := IntOp.cmpi_sge.1 hge
  have h1 : (p y).toInt < (128#32 : BitVec 32).toInt := IntOp.cmpi_slt.1 hlt
  rw [show (0#32 : BitVec 32).toInt = 0 from by decide] at h0
  rw [show (128#32 : BitVec 32).toInt = 128 from by decide] at h1
  exact ⟨h0, h1⟩

variable (a0 a1 a2 : FVec Ideal S128x64 .f32) (a3 : FVec Ideal S64x16384 .f32) (a4 a5 : IVec S128x128x128 32) (a6 : IVec S128x30x128 32)
variable (h : Cert.Pre_finite_inputs.fn (F := Ideal) a0 a1 a2 a3 a4 a5 a6 = fun _ => 1#1)
include h

/-- The precondition is a conjunction of five such reductions, nested to the left; each conjunct is read by the lemma
    for its spelling. -/
private theorem decoded :
    ((((∀ y, ∃ r : ℝ, a0 y = (r : EReal)) ∧ (∀ y, ∃ r : ℝ, a1 y = (r : EReal))) ∧ (∀ y, ∃ r : ℝ, a2 y = (r : EReal)))
      ∧ (∀ y, ∃ r : ℝ, a3 y = (r : EReal))) ∧ (∀ y, 0 ≤ (a6 y).toInt ∧ (a6 y).toInt < 128) := by
  have h0 := congrFun h ix0
  dsimp only [fn, fn_part1] at h0
  obtain ⟨h0123, e6⟩ := IntOp.andi_eq_one.1 h0
  obtain ⟨h012, e3⟩ := IntOp.andi_eq_one.1 h0123
  obtain ⟨h01, e2⟩ := IntOp.andi_eq_one.1 h012
  obtain ⟨e0, e1⟩ := IntOp.andi_eq_one.1 h01
  exact ⟨⟨⟨⟨real_of_all a0 _ _ _ e0, real_of_all a1 _ _ _ e1⟩, real_of_all a2 _ _ _ e2⟩, real_of_all a3 _ _ _ e3⟩,
    range_of_all a6 _ _ _ e6⟩

theorem real_arg0 : ∀ y, ∃ r : ℝ, a0 y = (r : EReal) := (decoded a0 a1 a2 a3 a4 a5 a6 h).1.1.1.1

theorem real_arg1 : ∀ y, ∃ r : ℝ, a1 y = (r : EReal) := (decoded a0 a1 a2 a3 a4 a5 a6 h).1.1.1.2

theorem real_arg2 : ∀ y, ∃ r : ℝ, a2 y = (r : EReal) := (decoded a0 a1 a2 a3 a4 a5 a6 h).1.1.2

theorem real_arg3 : ∀ y, ∃ r : ℝ, a3 y = (r : EReal) := (decoded a0 a1 a2 a3 a4 a5 a6 h).1.2

theorem range_arg6 : ∀ y, 0 ≤ (a6 y).toInt ∧ (a6 y).toInt < 128 := (decoded a0 a1 a2 a3 a4 a5 a6 h).2

end Cert.Proof.PreFacts

end
-- ==== Proof.Algebra.lean ====
/- Why the two forms of a score agree. A 0/1 row with its single one at position `p` turns a sum into the entry at
   `p`; the log-sigmoid satisfies `ls (−x) = ls x − x`, so `A · ls x + (1 − A) · ls (−x) = ls x − (1 − A) · x` for every
   real `A`; and sums of real numbers may be split and reordered. Everything in sight is a real number once the
   logits are, which is where finiteness of the inputs is used. -/
import proofs.«414202_j22780506538221_3_alg».proof.Proof.Spec
import Mathlib.Analysis.SpecialFunctions.Log.Basic

noncomputable section

namespace Cert.VAE

open Idealize.ShloMosaic Idealize.ShloMosaic.ValueIdx

/-- The float word of 1.0 denotes 1. -/
theorem oneF_eq : oneF = 1 := by
  simp [oneF, Ideal.ofBits, Ideal.ieee]
  rw [← EReal.coe_mul, ← EReal.coe_one]
  congr 1
  norm_num

/-- On the reals, `ls (−r) = ls r − r`. -/
theorem lsR_neg (r : ℝ) : lsR (-r) = lsR r - r := by
  unfold lsR
  rw [neg_neg, abs_neg]
  have h : max r 0 - max (-r) 0 = r := by
    rcases le_total 0 r with h | h
    · rw [max_eq_left h, max_eq_right (by linarith)]; ring
    · rw [max_eq_right h, max_eq_left (by linarith)]; ring
  linarith

/-- The maximum of two real numbers, read in the extended reals. -/
private theorem coe_max' (a b : ℝ) : max (a : EReal) (b : EReal) = ((max a b : ℝ) : EReal) :=
  (EReal.coe_strictMono.monotone.map_max).symm

/-- `log (1 + exp t)` at a real `t`, in the extended reals, is the real one. -/
private theorem log1p_exp_coe (t : ℝ) :
    Ideal.log1p (Ideal.exp (t : EReal)) = ((Real.log (1 + Real.exp t) : ℝ) : EReal) := by
  have hpos : ¬ (1 + Real.exp t ≤ 0) := by have := Real.exp_pos t; linarith
  rw [Ideal.exp_coe, Ideal.log1p, ← EReal.coe_one, ← EReal.coe_add, Ideal.log_coe, if_neg hpos]

/-- The common body of both spellings at a real `r`: `−(max (−r) 0 + log (1 + exp (−max (−r) (−−r))))`. -/
private theorem softplus_body (r : ℝ) :
    -(max (-(r : EReal)) 0 + Ideal.log1p (Ideal.exp (-(max (-(r : EReal)) (-(-(r : EReal)))))))
      = ((lsR r : ℝ) : EReal) := by
  have habs : max (-r) (- -r) = |(-r)| := rfl
  rw [← EReal.coe_neg r, ← EReal.coe_neg (-r), coe_max' (-r) (- -r), ← EReal.coe_neg (max (-r) (- -r)), log1p_exp_coe,
    ← EReal.coe_zero, coe_max', ← EReal.coe_add, ← EReal.coe_neg, habs, abs_neg]
  rfl

/-- The first program's spelling of the log-sigmoid, at a real number, is the real log-sigmoid. -/
theorem lsigK_coe (r : ℝ) : lsigK (r : EReal) = ((lsR r : ℝ) : EReal) := by
  have hc : Ideal.cmp .one ((0 - (r : EReal)) - 0) ((0 - (r : EReal)) - 0) = 0#1 := by simp [Ideal.cmp]
  unfold lsigK
  rw [hc, select_zero]
  simp only [zero_sub, sub_zero]
  exact softplus_body r

/-- So is the second program's. -/
theorem lsigR_coe (r : ℝ) : lsigR (r : EReal) = ((lsR r : ℝ) : EReal) := by
  have hc : Ideal.cmp .une ((-(r : EReal)) - 0) ((-(r : EReal)) - 0) = 0#1 := by simp [Ideal.cmp]
  unfold lsigR
  rw [hc, select_zero]
  simp only [sub_zero]
  exact softplus_body r

/-- An index word in 0 … 127 selects its own number, and is the word of that number. -/
theorem gIdx_of_range (p : BitVec 32) (h0 : 0 ≤ p.toInt) (h1 : p.toInt < 128) :
    p = BitVec.ofNat 32 (gIdx p).val := by
  have hs : IntOp.cmpi .slt p 0#32 = 0#1 := by
    have : p.slt 0#32 = false := by
      simp only [BitVec.slt, BitVec.toInt_zero, decide_eq_false_iff_not, not_lt]; exact h0
    simp only [IntOp.cmpi, this]; rfl
  have hlt := p.isLt
  have hcond := BitVec.toInt_eq_toNat_cond p
  have hti : p.toInt = (p.toNat : Int) := by
    split_ifs at hcond with hc
    · exact hcond
    · omega
  have hv : (gIdx p).val = p.toNat := by
    unfold gIdx
    simp only [hs, select_zero]
    omega
  rw [hv, BitVec.ofNat_toNat, BitVec.setWidth_eq]

/-- The 0/1 row of an in-range word has its one exactly at the position the word selects. -/
theorem oh_eq_ite (p : BitVec 32) (h0 : 0 ≤ p.toInt) (h1 : p.toInt < 128) (e : Fin 128) :
    oh p e = if e = gIdx p then 1 else 0 := by
  unfold oh
  have hp := gIdx_of_range p h0 h1
  by_cases he : e = gIdx p
  · rw [if_pos he, if_pos (by rw [he]; exact hp)]
  · rw [if_neg he, if_neg]
    intro hpe
    apply he
    have h2 : BitVec.ofNat 32 e.val = BitVec.ofNat 32 (gIdx p).val := hpe.symm.trans hp
    have h3 := congrArg BitVec.toNat h2
    simp only [BitVec.toNat_ofNat] at h3
    have := e.isLt
    have := (gIdx p).isLt
    apply Fin.ext
    omega

/-- A sum against the 0/1 row of an in-range word is the entry the word selects. -/
theorem sum_oh_mul (p : BitVec 32) (h0 : 0 ≤ p.toInt) (h1 : p.toInt < 128) (f : Fin 128 → EReal) :
    ∑ e : Fin 128, oh p e * f e = f (gIdx p) := by
  simp only [oh_eq_ite p h0 h1, ite_mul, one_mul, zero_mul]
  rw [Finset.sum_ite_eq' Finset.univ (gIdx p) f, if_pos (Finset.mem_univ _)]

theorem sum_mul_oh (p : BitVec 32) (h0 : 0 ≤ p.toInt) (h1 : p.toInt < 128) (f : Fin 128 → EReal) :
    ∑ e : Fin 128, f e * oh p e = f (gIdx p) := by
  simp only [oh_eq_ite p h0 h1, mul_ite, mul_one, mul_zero]
  rw [Finset.sum_ite_eq' Finset.univ (gIdx p) f, if_pos (Finset.mem_univ _)]

/-- A finite sum of real numbers read in the extended reals is the real sum read there. -/
theorem ereal_sum_coe {ι : Type*} (s : Finset ι) (f : ι → ℝ) :
    ∑ k ∈ s, ((f k : ℝ) : EReal) = ((∑ k ∈ s, f k : ℝ) : EReal) := by
  classical
  induction s using Finset.induction_on with
  | empty => simp
  | insert a s ha ih => rw [Finset.sum_insert ha, Finset.sum_insert ha, ih, EReal.coe_add]

/-- The latent sample is real when its three inputs are. -/
theorem zOf_real (mu ls ep : S128x64.Idx → EReal) (hmu : ∀ y, ∃ r : ℝ, mu y = (r : EReal)) (hls : ∀ y, ∃ r : ℝ, ls y = (r : EReal))
    (hep : ∀ y, ∃ r : ℝ, ep y = (r : EReal)) : ∀ y, ∃ r : ℝ, zOf mu ls ep y = (r : EReal) := by
  intro y
  obtain ⟨a, ha⟩ := hmu y
  obtain ⟨b, hb⟩ := hls y
  obtain ⟨c, hc⟩ := hep y
  refine ⟨a + c * Real.exp b, ?_⟩
  show mu y + ep y * Ideal.exp (ls y) = _
  rw [ha, hb, hc, Ideal.exp_coe, ← EReal.coe_mul, ← EReal.coe_add]

/-- The logits are real when the sample and the decoder matrix are. -/
theorem logitOf_real (z : S128x64.Idx → EReal) (W : S64x16384.Idx → EReal) (hz : ∀ y, ∃ r : ℝ, z y = (r : EReal))
    (hW : ∀ y, ∃ r : ℝ, W y = (r : EReal)) : ∀ y, ∃ r : ℝ, logitOf z W y = (r : EReal) := by
  intro y
  choose zr hzr using hz
  choose Wr hWr using hW
  refine ⟨∑ k : Fin 64, zr (ix2 (row30 (y 0)) k) * Wr (ix2 k (flat (y 1) (y 2))), ?_⟩
  show ∑ k : Fin 64, z (ix2 (row30 (y 0)) k) * W (ix2 k (flat (y 1) (y 2))) = _
  rw [← ereal_sum_coe]
  refine Finset.sum_congr rfl (fun k _ => ?_)
  rw [hzr, hWr, EReal.coe_mul]

/-- THE BRIDGE. With the index words in range (`hr`), the two layouts of them transposes of each other (`hP`) and
    real logits (`hL`), the two forms of the score of graph `j` under relabelling `i` are equal. -/
theorem recKer_eq_recRef (L : S30x128x128.Idx → EReal) (A M P : S30x128x128.Idx → BitVec 32) (Pm : S128x30x128.Idx → BitVec 32)
    (hP : ∀ (i : Fin 128) (j : Fin 30) (a : Fin 128), P (ix3 j i a) = Pm (ix3 i j a))
    (hr : ∀ y, 0 ≤ (Pm y).toInt ∧ (Pm y).toInt < 128) (hL : ∀ y, ∃ r : ℝ, L y = (r : EReal))
    (j : Fin 30) (i : Fin 128) : recKer L A M P j i = recRef L A M Pm i j := by
  choose Lr hLr using hL
  -- `g a`: the position word `a` of this relabelling selects; `x a d`: the logit gathered at (a, d)
  let g : Fin 128 → Fin 128 := fun a => gIdx (Pm (ix3 i j a))
  let x : Fin 128 → Fin 128 → ℝ := fun a d => Lr (ix3 j (g a) (g d))
  let m : Fin 128 → Fin 128 → ℝ := fun a d => ((M (ix3 j a d)).toInt : ℝ)
  let w : Fin 128 → Fin 128 → ℝ := fun a d => ((A (ix3 j a d)).toInt : ℝ)
  -- a row product followed by a column product against two 0/1 rows picks one entry
  have key : ∀ (a d : Fin 128) (F : Fin 128 → Fin 128 → EReal),
      ∑ c : Fin 128, (∑ e : Fin 128, oh (P (ix3 j i a)) e * F e c) * oh (P (ix3 j i d)) c = F (g a) (g d) := by
    intro a d F
    rw [hP, hP]
    exact (sum_mul_oh (Pm (ix3 i j d)) (hr _).1 (hr _).2 (fun c => ∑ e : Fin 128, oh (Pm (ix3 i j a)) e * F e c)).trans
      (sum_oh_mul (Pm (ix3 i j a)) (hr _).1 (hr _).2 (fun e => F e (g d)))
  -- the first form as a real double sum
  have hK : recKer L A M P j i
      = ((∑ a : Fin 128, ((∑ d : Fin 128, lsR (x a d) * m a d) - ∑ d : Fin 128, x a d * (m a d * (1 - w a d))) : ℝ) : EReal) := by
    unfold recKer
    rw [← ereal_sum_coe]
    refine Finset.sum_congr rfl (fun a _ => ?_)
    rw [EReal.coe_sub, ← ereal_sum_coe, ← ereal_sum_coe]
    congr 1
    · refine Finset.sum_congr rfl (fun d _ => ?_)
      rw [key a d (fun e c => lsigK (L (ix3 j e c))), hLr, lsigK_coe, EReal.coe_mul]
      rfl
    · refine Finset.sum_congr rfl (fun d _ => ?_)
      rw [key a d (fun e c => L (ix3 j e c)), hLr, oneF_eq, EReal.coe_mul, EReal.coe_mul, EReal.coe_sub, EReal.coe_one]
      rfl
  -- the second form as a real double sum
  have hR : recRef L A M Pm i j
      = ((∑ a : Fin 128, ∑ d : Fin 128, (w a d * lsR (x a d) + (1 - w a d) * (lsR (x a d) - x a d)) * m a d : ℝ) : EReal) := by
    unfold recRef
    rw [← ereal_sum_coe]
    refine Finset.sum_congr rfl (fun a _ => ?_)
    rw [← ereal_sum_coe]
    refine Finset.sum_congr rfl (fun d _ => ?_)
    rw [hLr, ← EReal.coe_neg, lsigR_coe, lsigR_coe, lsR_neg, oneF_eq, EReal.coe_mul, EReal.coe_add, EReal.coe_mul, EReal.coe_mul,
      EReal.coe_sub, EReal.coe_sub, EReal.coe_one]
    rfl
  rw [hK, hR]
  congr 1
  refine Finset.sum_congr rfl (fun a _ => ?_)
  rw [← Finset.sum_sub_distrib]
  refine Finset.sum_congr rfl (fun d _ => ?_)
  ring

end Cert.VAE

end
-- ==== Proof.KReg0.lean ====
/- Region 0 (the decoder product), read as a value: what its eight column blocks leave in the 30 × 16384 array. -/
import proofs.«414202_j22780506538221_3_alg».proof.Proof.Gen.KernelIdeal.Frame
import proofs.«414202_j22780506538221_3_alg».proof.Proof.Spec
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## The body's product at an entry

The body multiplies its 30 × 64 block by its 64 × 2048 block into a zero accumulator; both format changes on the way
are the identity on extended reals. Entry (p, q) of the result is therefore the sum over k of the products of entry
(p, k) of the first block and entry (k, q) of the second. -/

/-- Every access of the body starts at the two zero offsets. -/
theorem off_zero : (![0, 0] : Fin 2 → Nat) = fun _ => 0 :=
  funext fun a => by match a with | ⟨0, _⟩ => rfl | ⟨1, _⟩ => rfl

/-- The left operand's row is the result's row. -/
theorem lhs_row (i : S30x2048.Idx) (q : dot_S30x64_S64x2048_S30x2048_1_0_0_1_n_n.contr.Idx) :
    (dot_S30x64_S64x2048_S30x2048_1_0_0_1_n_n.lhsIdx i q 0).val = (i 0).val := by
  unfold DotDims.lhsIdx
  rw [dif_neg (show ¬(0 : Fin S30x64.rank) ∈ dot_S30x64_S64x2048_S30x2048_1_0_0_1_n_n.lhsBatch by decide),
    dif_pos (show (0 : Fin S30x64.rank) ∈ dot_S30x64_S64x2048_S30x2048_1_0_0_1_n_n.lhsNonContracting by decide)]
  rfl

/-- The left operand's column is the summation index. -/
theorem lhs_col (i : S30x2048.Idx) (q : dot_S30x64_S64x2048_S30x2048_1_0_0_1_n_n.contr.Idx) :
    (dot_S30x64_S64x2048_S30x2048_1_0_0_1_n_n.lhsIdx i q 1).val = (q ⟨0, by decide⟩).val :=
  dot_S30x64_S64x2048_S30x2048_1_0_0_1_n_n.lhsIdx_val_of_single rfl i q

/-- The right operand's row is the summation index. -/
theorem rhs_row (i : S30x2048.Idx) (q : dot_S30x64_S64x2048_S30x2048_1_0_0_1_n_n.contr.Idx) :
    (dot_S30x64_S64x2048_S30x2048_1_0_0_1_n_n.rhsIdx i q 0).val = (q ⟨0, by decide⟩).val :=
  dot_S30x64_S64x2048_S30x2048_1_0_0_1_n_n.rhsIdx_val_of_single rfl i q

/-- The right operand's column is the result's column. -/
theorem rhs_col (i : S30x2048.Idx) (q : dot_S30x64_S64x2048_S30x2048_1_0_0_1_n_n.contr.Idx) :
    (dot_S30x64_S64x2048_S30x2048_1_0_0_1_n_n.rhsIdx i q 1).val = (i 1).val := by
  unfold DotDims.rhsIdx
  rw [dif_neg (show ¬(1 : Fin S64x2048.rank) ∈ dot_S30x64_S64x2048_S30x2048_1_0_0_1_n_n.rhsBatch by decide),
    dif_pos (show (1 : Fin S64x2048.rank) ∈ dot_S30x64_S64x2048_S30x2048_1_0_0_1_n_n.rhsNonContracting by decide)]
  rfl

/-- Entry (p, q) of what the body stores: the row of the first block against the column of the second. -/
theorem pay_apply (x0 : Vec Ideal S30x64 .f32) (x1 : Vec Ideal S64x2048 .f32) (p : Fin 30) (q : Fin 2048) :
    k0_pay1 x0 x1 (ix2 p q) = ∑ k : Fin 64, x0 (ix2 p k) * x1 (ix2 k q) := by
  unfold k0_pay1
  simp only [matmul]
  rw [Ideal.matmul_constant_zero_apply, ← Equiv.sum_comp (contrEquiv1 dot_S30x64_S64x2048_S30x2048_1_0_0_1_n_n 64 rfl rfl).symm]
  refine Finset.sum_congr rfl fun k _ => ?_
  have hk := contrEquiv1_symm_val dot_S30x64_S64x2048_S30x2048_1_0_0_1_n_n 64 rfl rfl k
  have el : dot_S30x64_S64x2048_S30x2048_1_0_0_1_n_n.lhsIdx (ix2 p q) ((contrEquiv1 dot_S30x64_S64x2048_S30x2048_1_0_0_1_n_n 64 rfl rfl).symm k) = ix2 p k :=
    funext fun a => Fin.ext (by
      match a with
      | ⟨0, _⟩ => exact lhs_row _ _
      | ⟨1, _⟩ => exact (lhs_col _ _).trans hk)
  have er : dot_S30x64_S64x2048_S30x2048_1_0_0_1_n_n.rhsIdx (ix2 p q) ((contrEquiv1 dot_S30x64_S64x2048_S30x2048_1_0_0_1_n_n 64 rfl rfl).symm k) = ix2 k q :=
    funext fun a => Fin.ext (by
      match a with
      | ⟨0, _⟩ => exact (rhs_row _ _).trans hk
      | ⟨1, _⟩ => exact rhs_col _ _)
  rw [el, er]
  simp only [truncf_apply, shapeCast_self]

/-! ## One grid point

Point `t` of the eight reads the whole 30 × 64 array of sample rows, columns `2048 t … 2048 t + 2047` of the decoder
matrix, and writes the same columns of the result. -/

/-- Where the three blocks sit at point `t`, decided over the grid: the first always at the origin, the other two at
    column block `t`. -/
theorem idx_facts : ∀ t : Fin cfg0.N, win0_0.index t (0 : Fin 2) = 0 ∧ win0_0.index t (1 : Fin 2) = 0
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- The first block is the array of sample rows itself. -/
theorem rows_apply (c : Dev nD) (t : Fin cfg0.N) (x : S30x64.Idx) (i : VAE.S30x64.Idx)
    (h0 : (i 0).val = (x 0).val) (h1 : (i 1).val = (x 1).val) :
    (iblk0 V c 0 t : Vec Ideal S30x64 .f32) x = (V c main_v3 : VAE.S30x64.Idx → EReal) i := by
  obtain ⟨e0, e1, -⟩ := idx_facts t
  unfold iblk0
  rw [View.read_apply]
  show V c main_v3 _ = V c main_v3 _
  congr 1
  funext a
  apply Fin.ext
  match a with
  | ⟨0, _⟩ => show win0_0.index t 0 * 30 + 1 * (x 0).val = (i 0).val; rw [e0, h0]; omega
  | ⟨1, _⟩ => show win0_0.index t 1 * 64 + 1 * (x 1).val = (i 1).val; rw [e1, h1]; omega

/-- The second block is columns `2048 t …` of the decoder matrix. -/
theorem cols_apply (c : Dev nD) (t : Fin cfg0.N) (x : S64x2048.Idx) (i : VAE.S64x16384.Idx)
    (h0 : (i 0).val = (x 0).val) (h1 : (i 1).val = t.val * 2048 + (x 1).val) :
    (iblk0 V c 1 t : Vec Ideal S64x2048 .f32) x = (V c main_arg3 : VAE.S64x16384.Idx → EReal) i := by
  obtain ⟨-, -, e0, e1, -⟩ := idx_facts t
  unfold iblk0
  rw [View.read_apply]
  show V c main_arg3 _ = V c main_arg3 _
  congr 1
  funext a
  apply Fin.ext
  match a with
  | ⟨0, _⟩ => show win0_1.index t 0 * 64 + 1 * (x 0).val = (i 0).val; rw [e0, h0]; omega
  | ⟨1, _⟩ => show win0_1.index t 1 * 2048 + 1 * (x 1).val = (i 1).val; rw [e1, h1]; omega

/-- The product of two blocks that are the sample rows and a column block of the matrix, at an entry, is the whole
    product at the entry the same columns further right. -/
theorem point_entry (x0 : Vec Ideal S30x64 .f32) (x1 : Vec Ideal S64x2048 .f32)
    (A : VAE.S30x64.Idx → EReal) (W : VAE.S64x16384.Idx → EReal) (s : Nat) (j : S30x2048.Idx) (y : VAE.S30x16384.Idx)
    (hA : ∀ (u : S30x64.Idx) (i : VAE.S30x64.Idx), (i 0).val = (u 0).val → (i 1).val = (u 1).val → x0 u = A i)
    (hW : ∀ (u : S64x2048.Idx) (i : VAE.S64x16384.Idx), (i 0).val = (u 0).val → (i 1).val = s * 2048 + (u 1).val → x1 u = W i)
    (hy0 : (y 0).val = (j 0).val) (hy1 : (y 1).val = s * 2048 + (j 1).val) :
    k0_pay1 x0 x1 j = VAE.prod30 A W y := by
  obtain ⟨p, q, rfl⟩ : ∃ (p : Fin 30) (q : Fin 2048), j = ix2 p q := ⟨j 0, j 1, eq_ix2 j⟩
  rw [pay_apply]
  unfold VAE.prod30
  refine Finset.sum_congr rfl fun k _ => ?_
  rw [hA (ix2 p k) (ix2 (y 0) k) hy0 rfl, hW (ix2 k q) (ix2 k (y 1)) rfl hy1]

/-- What point `t` writes back is its block of the product. -/
theorem flushed_eq (c : Dev nD) (t : Fin cfg0.N) :
    (dat0 (F := Ideal) V c).flushed 2 t
      = ((cfg0.win 2).blk t).view.read (Elt Ideal) (VAE.prod30 (V c main_v3) (V c main_arg3)) := by
  show (cfg0.win 2).cut (grid0.coords t) ((dat0 V c).after 2 t) = _
  rw [after0_2]
  unfold out0_2
  rw [View.canon_unit_zero off_zero]
  simp only [View.ld_unit_zero (S := S30x64) off_zero, View.ld_unit_zero (S := S64x2048) off_zero]
  obtain ⟨-, -, -, -, e0, e1⟩ := idx_facts t
  funext j
  show k0_pay1 (iblk0 V c 0 t) (iblk0 V c 1 t) j
    = VAE.prod30 (V c main_v3) (V c main_arg3) (((cfg0.win 2).blk t).view.emb j)
  refine point_entry (iblk0 V c 0 t) (iblk0 V c 1 t) (V c main_v3) (V c main_arg3) t.val j
    (((cfg0.win 2).blk t).view.emb j) (rows_apply V c t) (cols_apply V c t) ?_ ?_
  · show win0_2.index t 0 * 30 + 1 * (j 0).val = (j 0).val
    rw [e0]; omega
  · show win0_2.index t 1 * 2048 + 1 * (j 1).val = t.val * 2048 + (j 1).val
    rw [e1]; omega

/-! ## The eight points together -/

/-- An entry of the array lies in point `t`'s block when each coordinate lies in the block's range. -/
theorem mem_blk (t : Fin cfg0.N) (i : S30x16384.Idx) :
    i ∈ ((cfg0.win 2).blk t).view.set ↔ ∀ a : Fin 2, win0_2.index t a * S30x2048.size a ≤ (i a).val
      ∧ (i a).val < win0_2.index t a * S30x2048.size a + S30x2048.size a := by
  show i ∈ ((View.whole main_v4).slice (win0_2.rect t)).set ↔ _
  rw [View.set_slice_whole, Rect.mem_set_unit]
  exact Iff.rfl

/-- Column `n` is written by point `n / 2048`: the eight column blocks fill the array. -/
theorem cover (i : S30x16384.Idx) :
    ∃ t : Fin cfg0.N, (cfg0.win 2).flush t = true ∧ i ∈ ((cfg0.win 2).blk t).view.set := by
  have hi0 : (i 0).val < 30 := (i 0).isLt
  have hi1 : (i 1).val < 16384 := (i 1).isLt
  have hN : cfg0.N = 8 := N_0
  let t : Fin cfg0.N := ⟨(i 1).val / 2048, by rw [hN]; omega⟩
  obtain ⟨-, -, -, -, e0, e1⟩ := idx_facts t
  have e1' : win0_2.index t (1 : Fin 2) = (i 1).val / 2048 := e1
  refine ⟨t, flush0_2 t, ?_⟩
  rw [mem_blk]
  intro a
  match a with
  | ⟨0, _⟩ =>
    show win0_2.index t 0 * 30 ≤ (i 0).val ∧ (i 0).val < win0_2.index t 0 * 30 + 30
    rw [e0]; omega
  | ⟨1, _⟩ =>
    show win0_2.index t 1 * 2048 ≤ (i 1).val ∧ (i 1).val < win0_2.index t 1 * 2048 + 2048
    rw [e1']; omega

/-- After the region the output array is the product of the 30 sample rows it was given with the decoder matrix. -/
theorem reg0_value (c : Dev nD) :
    ((dat0 (F := Ideal) V c).arrAt 2 cfg0.N : VAE.S30x16384.Idx → EReal) = VAE.prod30 (V c main_v3) (V c main_arg3) :=
  (dat0 (F := Ideal) V c).arrAt_eq_of_cover 2 (VAE.prod30 (V c main_v3) (V c main_arg3))
    (fun t _ => flushed_eq V c t) cover

end Cert.KernelIdeal.Val

end
-- ==== Proof.KReg1_Pay.lean ====
/- Region 1's body read at an index. Entry (0, 0, i) of what the body stores is relabelling i's score of the point's
   graph: the sum over positions a and d of the gathered log-sigmoid table times the mask, minus the gathered logit
   table times mask · (1 − adjacency), both gathers spelt as products with 0/1 matrices. The pieces, in order: each
   matrix product as the sum over its one contracted axis; each lane sum as the sum over its axis's coordinates; the
   flat 16384 × 128 table as 128 tables of 128 rows, and the unit-axis casts and broadcasts; the 0/1 entries (an
   equality test of an index word against an axis coordinate, widened and read as a real); the integer words as
   reals; the log-sigmoid chain; then the whole payload. -/
import proofs.«414202_j22780506538221_3_alg».proof.Proof.Gen.KernelIdeal.Skeleton
import proofs.«414202_j22780506538221_3_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Val

open Cert.KernelIdeal Cert.KernelIdeal.Gen Idealize.ShloMosaic Idealize.ShloMosaic.ValueIdx

/-! ## The two matrix products read at an index -/

theorem lhs_D1_0 (i : S16384x128.Idx) (q : dot_S16384x128_S128x128_S16384x128_1_0_0_1_n_n.contr.Idx) :
    (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide),
    dif_pos (show (0 : Fin S16384x128.rank) ∈ dot_S16384x128_S128x128_S16384x128_1_0_0_1_n_n.lhsNonContracting by decide)]
  rfl
theorem lhs_D1_1 (i : S16384x128.Idx) (q : dot_S16384x128_S128x128_S16384x128_1_0_0_1_n_n.contr.Idx) :
    (dot_S16384x128_S128x128_S16384x128_1_0_0_1_n_n.lhsIdx i q 1).val = (q ⟨0, by decide⟩).val :=
  dot_S16384x128_S128x128_S16384x128_1_0_0_1_n_n.lhsIdx_val_of_single rfl i q
theorem rhs_D1_0 (i : S16384x128.Idx) (q : dot_S16384x128_S128x128_S16384x128_1_0_0_1_n_n.contr.Idx) :
    (dot_S16384x128_S128x128_S16384x128_1_0_0_1_n_n.rhsIdx i q 0).val = (q ⟨0, by decide⟩).val :=
  dot_S16384x128_S128x128_S16384x128_1_0_0_1_n_n.rhsIdx_val_of_single rfl i q
theorem rhs_D1_1 (i : S16384x128.Idx) (q : dot_S16384x128_S128x128_S16384x128_1_0_0_1_n_n.contr.Idx) :
    (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide),
    dif_pos (show (1 : Fin S128x128.rank) ∈ dot_S16384x128_S128x128_S16384x128_1_0_0_1_n_n.rhsNonContracting by decide)]
  rfl

/-- The flat product at (r, c): the sum over the one contracted axis. -/
theorem mm1_apply (A : FVec Ideal S16384x128 .bf16) (B : FVec Ideal S128x128 .bf16) (r : Fin 16384) (c : Fin 128) :
    matmul dot_S16384x128_S128x128_S16384x128_1_0_0_1_n_n none A B (constant (F := Ideal) S16384x128 .f32 0x00000000#32) (ix2 r c)
      = ∑ e : Fin 128, A (ix2 r e) * B (ix2 e c) := by
  simp only [matmul]
  rw [Ideal.matmul_constant_zero_apply,
    ← Equiv.sum_comp (contrEquiv1 dot_S16384x128_S128x128_S16384x128_1_0_0_1_n_n 128 rfl rfl).symm]
  refine Finset.sum_congr rfl fun k _ => ?_
  have hk := contrEquiv1_symm_val dot_S16384x128_S128x128_S16384x128_1_0_0_1_n_n 128 rfl rfl k
  have el : dot_S16384x128_S128x128_S16384x128_1_0_0_1_n_n.lhsIdx (ix2 r c)
      ((contrEquiv1 dot_S16384x128_S128x128_S16384x128_1_0_0_1_n_n 128 rfl rfl).symm k) = ix2 r k := funext fun a => Fin.ext (by
    match a with
    | ⟨0, _⟩ => exact lhs_D1_0 _ _
    | ⟨1, _⟩ => exact (lhs_D1_1 _ _).trans hk)
  have er : dot_S16384x128_S128x128_S16384x128_1_0_0_1_n_n.rhsIdx (ix2 r c)
      ((contrEquiv1 dot_S16384x128_S128x128_S16384x128_1_0_0_1_n_n 128 rfl rfl).symm k) = ix2 k c := funext fun a => Fin.ext (by
    match a with
    | ⟨0, _⟩ => exact (rhs_D1_0 _ _).trans hk
    | ⟨1, _⟩ => exact rhs_D1_1 _ _)
  rw [el, er]

theorem lhs_D2_0 (i : S128x128x128.Idx) (q : dot_S128x128x128_S128x128x128_S128x128x128_2_1_1_2_0_0.contr.Idx) :
    (dot_S128x128x128_S128x128x128_S128x128x128_2_1_1_2_0_0.lhsIdx i q 0).val = (i 0).val := by
  unfold DotDims.lhsIdx
  rw [dif_pos (show (0 : Fin S128x128x128.rank) ∈ dot_S128x128x128_S128x128x128_S128x128x128_2_1_1_2_0_0.lhsBatch by decide)]
  rfl
theorem lhs_D2_1 (i : S128x128x128.Idx) (q : dot_S128x128x128_S128x128x128_S128x128x128_2_1_1_2_0_0.contr.Idx) :
    (dot_S128x128x128_S128x128x128_S128x128x128_2_1_1_2_0_0.lhsIdx i q 1).val = (i 1).val := by
  unfold DotDims.lhsIdx
  rw [dif_neg (show ¬(1 : Fin S128x128x128.rank) ∈ dot_S128x128x128_S128x128x128_S128x128x128_2_1_1_2_0_0.lhsBatch by decide),
    dif_pos (show (1 : Fin S128x128x128.rank) ∈ dot_S128x128x128_S128x128x128_S128x128x128_2_1_1_2_0_0.lhsNonContracting by decide)]
  rfl
theorem lhs_D2_2 (i : S128x128x128.Idx) (q : dot_S128x128x128_S128x128x128_S128x128x128_2_1_1_2_0_0.contr.Idx) :
    (dot_S128x128x128_S128x128x128_S128x128x128_2_1_1_2_0_0.lhsIdx i q 2).val = (q ⟨0, by decide⟩).val :=
  dot_S128x128x128_S128x128x128_S128x128x128_2_1_1_2_0_0.lhsIdx_val_of_single rfl i q
theorem rhs_D2_0 (i : S128x128x128.Idx) (q : dot_S128x128x128_S128x128x128_S128x128x128_2_1_1_2_0_0.contr.Idx) :
    (dot_S128x128x128_S128x128x128_S128x128x128_2_1_1_2_0_0.rhsIdx i q 0).val = (i 0).val := by
  unfold DotDims.rhsIdx
  rw [dif_pos (show (0 : Fin S128x128x128.rank) ∈ dot_S128x128x128_S128x128x128_S128x128x128_2_1_1_2_0_0.rhsBatch by decide)]
  rfl
theorem rhs_D2_1 (i : S128x128x128.Idx) (q : dot_S128x128x128_S128x128x128_S128x128x128_2_1_1_2_0_0.contr.Idx) :
    (dot_S128x128x128_S128x128x128_S128x128x128_2_1_1_2_0_0.rhsIdx i q 1).val = (q ⟨0, by decide⟩).val :=
  dot_S128x128x128_S128x128x128_S128x128x128_2_1_1_2_0_0.rhsIdx_val_of_single rfl i q
theorem rhs_D2_2 (i : S128x128x128.Idx) (q : dot_S128x128x128_S128x128x128_S128x128x128_2_1_1_2_0_0.contr.Idx) :
    (dot_S128x128x128_S128x128x128_S128x128x128_2_1_1_2_0_0.rhsIdx i q 2).val = (i 2).val := by
  unfold DotDims.rhsIdx
  rw [dif_neg (show ¬(2 : Fin S128x128x128.rank) ∈ dot_S128x128x128_S128x128x128_S128x128x128_2_1_1_2_0_0.rhsBatch by decide),
    dif_pos (show (2 : Fin S128x128x128.rank) ∈ dot_S128x128x128_S128x128x128_S128x128x128_2_1_1_2_0_0.rhsNonContracting by decide)]
  rfl

/-- The batched product at (i, a, d): batch i, the sum over the contracted axis. -/
theorem mm2_apply (A B : FVec Ideal S128x128x128 .bf16) (i a d : Fin 128) :
    matmul dot_S128x128x128_S128x128x128_S128x128x128_2_1_1_2_0_0 none A B (constant (F := Ideal) S128x128x128 .f32 0x00000000#32) (ix3 i a d)
      = ∑ c : Fin 128, A (ix3 i a c) * B (ix3 i c d) := by
  simp only [matmul]
  rw [Ideal.matmul_constant_zero_apply,
    ← Equiv.sum_comp (contrEquiv1 dot_S128x128x128_S128x128x128_S128x128x128_2_1_1_2_0_0 128 rfl rfl).symm]
  refine Finset.sum_congr rfl fun k _ => ?_
  have hk := contrEquiv1_symm_val dot_S128x128x128_S128x128x128_S128x128x128_2_1_1_2_0_0 128 rfl rfl k
  have el : dot_S128x128x128_S128x128x128_S128x128x128_2_1_1_2_0_0.lhsIdx (ix3 i a d)
      ((contrEquiv1 dot_S128x128x128_S128x128x128_S128x128x128_2_1_1_2_0_0 128 rfl rfl).symm k) = ix3 i a k := funext fun b => Fin.ext (by
    match b with
    | ⟨0, _⟩ => exact lhs_D2_0 _ _
    | ⟨1, _⟩ => exact lhs_D2_1 _ _
    | ⟨2, _⟩ => exact (lhs_D2_2 _ _).trans hk)
  have er : dot_S128x128x128_S128x128x128_S128x128x128_2_1_1_2_0_0.rhsIdx (ix3 i a d)
      ((contrEquiv1 dot_S128x128x128_S128x128x128_S128x128x128_2_1_1_2_0_0 128 rfl rfl).symm k) = ix3 i k d := funext fun b => Fin.ext (by
    match b with
    | ⟨0, _⟩ => exact rhs_D2_0 _ _
    | ⟨1, _⟩ => exact (rhs_D2_1 _ _).trans hk
    | ⟨2, _⟩ => exact rhs_D2_2 _ _)
  rw [el, er]

/-! ## The lane sums, the casts and the broadcast read at an index -/

/-- The sum over the last axis of a cube, at (i, a). -/
theorem sum_axis2_apply (X : FVec Ideal S128x128x128 .f32) (h : S128x128x128.Reduces [2] S128x128) (hφ : FKind.Formats .f32)
    (hacc : (0x00000000#32 : BitVec 32) = 0x00000000#32) (i a : Fin 128) :
    multiReduction .add [2] S128x128 X 0x00000000#32 h hφ hacc (ix2 i a) = ∑ d : Fin 128, X (ix3 i a d) := by
  refine (Ideal.multiReduction_add_single X 0x00000000#32 h hφ hacc (ix2 i a)).trans ?_
  refine Finset.sum_congr rfl fun d _ => congrArg X ?_
  funext b
  match b with
  | ⟨0, _⟩ => rfl
  | ⟨1, _⟩ => rfl
  | ⟨2, _⟩ => rfl

/-- The sum over the last axis of a square, at i. -/
theorem sum_axis1_apply (X : FVec Ideal S128x128 .f32) (h : S128x128.Reduces [1] S128) (hφ : FKind.Formats .f32)
    (hacc : (0x00000000#32 : BitVec 32) = 0x00000000#32) (i : Fin 128) :
    multiReduction .add [1] S128 X 0x00000000#32 h hφ hacc (ix1 i) = ∑ a : Fin 128, X (ix2 i a) := by
  refine (Ideal.multiReduction_add_single X 0x00000000#32 h hφ hacc (ix1 i)).trans ?_
  refine Finset.sum_congr rfl fun a _ => congrArg X ?_
  funext b
  match b with
  | ⟨0, _⟩ => rfl
  | ⟨1, _⟩ => rfl

/-- Row i·128 + a of the flat 16384-row table. -/
def flatRow (i a : Fin 128) : Fin 16384 := ⟨i.val * 128 + a.val, by have := i.isLt; have := a.isLt; omega⟩

variable {α : Type}

/-- The flat table cut into 128 tables: entry (i, a, c) is row i·128 + a, column c. -/
theorem cast_flat_cube_apply (X : S16384x128.Idx → α) (h : S16384x128.ShapeCasts S128x128x128) (i a c : Fin 128) :
    shapeCast S128x128x128 X h (ix3 i a c) = X (ix2 (flatRow i a) c) :=
  shapeCast_apply X h _ _ (by
    rw [Shape.rowMajor_val_two, Shape.rowMajor_val_three]
    rfl)

/-- The 128 tables laid flat: row i·128 + a, column e is entry (i, a, e). -/
theorem cast_cube_flat_apply (X : S128x128x128.Idx → α) (h : S128x128x128.ShapeCasts S16384x128) (i a e : Fin 128) :
    shapeCast S16384x128 X h (ix2 (flatRow i a) e) = X (ix3 i a e) :=
  shapeCast_apply X h _ _ (by
    rw [Shape.rowMajor_val_two, Shape.rowMajor_val_three]
    rfl)

/-- One table broadcast over a leading axis of 128. -/
theorem bcast_table_apply (X : S1x128x128.Idx → α) (h : S1x128x128.Broadcasts S128x128x128) (i a d : Fin 128) :
    broadcastTo S128x128x128 X h (ix3 i a d) = X (ix3 (0 : Fin 1) a d) := by
  refine broadcastTo_apply X h (ix3 i a d) (ix3 (0 : Fin 1) a d) fun ax => ?_
  match ax with
  | ⟨0, _⟩ => rfl
  | ⟨1, _⟩ => rfl
  | ⟨2, _⟩ => rfl

/-- A square with a trailing unit axis, broadcast along it. -/
theorem bcast_col_apply (X : S128x128x1.Idx → α) (h : S128x128x1.Broadcasts S128x128x128) (i a e : Fin 128) :
    broadcastTo S128x128x128 X h (ix3 i a e) = X (ix3 i a (0 : Fin 1)) := by
  refine broadcastTo_apply X h (ix3 i a e) (ix3 i a (0 : Fin 1)) fun ax => ?_
  match ax with
  | ⟨0, _⟩ => rfl
  | ⟨1, _⟩ => rfl
  | ⟨2, _⟩ => rfl

/-- A square with a middle unit axis, broadcast along it. -/
theorem bcast_mid_apply (X : S128x1x128.Idx → α) (h : S128x1x128.Broadcasts S128x128x128) (i c d : Fin 128) :
    broadcastTo S128x128x128 X h (ix3 i c d) = X (ix3 i (0 : Fin 1) d) := by
  refine broadcastTo_apply X h (ix3 i c d) (ix3 i (0 : Fin 1) d) fun ax => ?_
  match ax with
  | ⟨0, _⟩ => rfl
  | ⟨1, _⟩ => rfl
  | ⟨2, _⟩ => rfl

/-- A square given a trailing unit axis. -/
theorem cast_sq_col_apply (X : S128x128.Idx → α) (h : S128x128.ShapeCasts S128x128x1) (i a : Fin 128) (u : Fin 1) :
    shapeCast S128x128x1 X h (ix3 i a u) = X (ix2 i a) :=
  shapeCast_apply X h _ _ (by
    have hu : u.val = 0 := by omega
    rw [Shape.rowMajor_val_two, Shape.rowMajor_val_three]
    show i.val * 128 + a.val = (i.val * 128 + a.val) * 1 + u.val
    omega)

/-- A square given a middle unit axis. -/
theorem cast_sq_mid_apply (X : S128x128.Idx → α) (h : S128x128.ShapeCasts S128x1x128) (i d : Fin 128) (u : Fin 1) :
    shapeCast S128x1x128 X h (ix3 i u d) = X (ix2 i d) :=
  shapeCast_apply X h _ _ (by
    have hu : u.val = 0 := by omega
    rw [Shape.rowMajor_val_two, Shape.rowMajor_val_three]
    show i.val * 128 + d.val = (i.val * 1 + u.val) * 128 + d.val
    omega)

/-! ## The 0/1 entries, the integer words as reals, the log-sigmoid -/

/-- An equality test of two words, widened to 32 bits and read as a signed integer, is 1 or 0. -/
theorem oh_word (p : BitVec 32) (e : Fin 128) :
    FloatOps.sitofp (F := Ideal) .f32 ((IntOp.cmpi .eq p (BitVec.ofNat 32 e.val)).setWidth 32) = VAE.oh p e := by
  show ((((BitVec.ofBool (p == BitVec.ofNat 32 e.val)).setWidth 32).toInt : ℝ) : EReal) = VAE.oh p e
  unfold VAE.oh
  by_cases h : p = BitVec.ofNat 32 e.val
  · rw [if_pos h, show (p == BitVec.ofNat 32 e.val) = true from by simpa using h,
      show ((BitVec.ofBool true).setWidth 32).toInt = 1 from by decide]
    simp
  · rw [if_neg h, show (p == BitVec.ofNat 32 e.val) = false from by simpa using h,
      show ((BitVec.ofBool false).setWidth 32).toInt = 0 from by decide]
    simp

/-- The index words as a square. -/
theorem pay2_apply (x3 : Vec Ideal S1x128x128 .i32) (i a : Fin 128) :
    k1_pay2 (F := Ideal) x3 (ix2 i a) = x3 (ix3 (0 : Fin 1) i a) := by
  unfold k1_pay2
  exact shapeCast_1ab_ab_apply _ _ i a

/-- The row selector: row i·128 + a of the flat 0/1 table has its one in the column the word (i, a) names. -/
theorem pay7_apply (x3 : Vec Ideal S1x128x128 .i32) (i a e : Fin 128) :
    k1_pay7 (F := Ideal) x3 (ix2 (flatRow i a) e) = VAE.oh (x3 (ix3 (0 : Fin 1) i a)) e := by
  unfold k1_pay7
  refine (cast_cube_flat_apply _ _ i a e).trans ?_
  rw [truncf_apply, sitofp_apply, extui_apply]
  show FloatOps.sitofp (F := Ideal) .f32 ((IntOp.cmpi .eq (broadcastTo S128x128x128 _ _ (ix3 i a e)) (iota .tc S128x128x128 32 [2] _ (ix3 i a e))).setWidth 32) = _
  rw [bcast_col_apply, cast_sq_col_apply, pay2_apply, iota_single_apply]
  exact oh_word _ e

/-- The column selector: entry (i, c, d) is one where the word (i, d) names c. -/
theorem pay3_apply (x3 : Vec Ideal S1x128x128 .i32) (i c d : Fin 128) :
    k1_pay3 (F := Ideal) x3 (ix3 i c d) = VAE.oh (x3 (ix3 (0 : Fin 1) i d)) c := by
  unfold k1_pay3
  rw [truncf_apply, sitofp_apply, extui_apply]
  show FloatOps.sitofp (F := Ideal) .f32 ((IntOp.cmpi .eq (broadcastTo S128x128x128 _ _ (ix3 i c d)) (iota .tc S128x128x128 32 [1] _ (ix3 i c d))).setWidth 32) = _
  rw [bcast_mid_apply, cast_sq_mid_apply, pay2_apply, iota_single_apply]
  exact oh_word _ c

/-- The logits as a square. -/
theorem pay4_apply (x0 : Vec Ideal S1x128x128 .f32) (e c : Fin 128) :
    k1_pay4 (F := Ideal) x0 (ix2 e c) = x0 (ix3 (0 : Fin 1) e c) := by
  unfold k1_pay4
  exact shapeCast_1ab_ab_apply _ _ e c

/-- The mask words as reals. -/
theorem pay5_apply (x2 : Vec Ideal S1x128x128 .i32) (a d : Fin 128) :
    k1_pay5 (F := Ideal) x2 (ix2 a d) = VAE.mf (x2 (ix3 (0 : Fin 1) a d)) := by
  unfold k1_pay5
  rw [sitofp_apply, shapeCast_1ab_ab_apply]
  rfl

/-- The mask times one minus the adjacency. -/
theorem pay6_apply (x1 x2 : Vec Ideal S1x128x128 .i32) (a d : Fin 128) :
    k1_pay6 (F := Ideal) x1 x2 (ix2 a d) = VAE.mf (x2 (ix3 (0 : Fin 1) a d)) * (VAE.oneF - VAE.mf (x1 (ix3 (0 : Fin 1) a d))) := by
  unfold k1_pay6
  rw [mulf_apply, pay5_apply, subf_apply, broadcast_apply, sitofp_apply, shapeCast_1ab_ab_apply]
  rfl

/-- The select / compare / exp / log1p chain on the negated logits, negated, is the log-sigmoid in its first spelling. -/
theorem lsig_apply (x0 : Vec Ideal S1x128x128 .f32) (j : S128x128.Idx) :
    subf (broadcast S128x128 (Scalar.ofBits (F := Ideal) .f32 0x00000000#32))
        (select (k1_pay10 (F := Ideal) x0) (k1_pay11 (F := Ideal) x0) (k1_pay12 (F := Ideal) x0)) j
      = VAE.lsigK (k1_pay4 (F := Ideal) x0 j) := by
  have hz : Scalar.ofBits (F := Ideal) .f32 0x00000000#32 = (0 : EReal) := Ideal.ofBits_zero_f32
  unfold VAE.lsigK k1_pay10 k1_pay11 k1_pay12 k1_pay9 k1_pay8
  simp only [subf_apply, select_apply, broadcast_apply, addf_apply, maximumf_apply, cmpf_apply, hz]
  rfl

/-! ## The payload at an index -/

/-- One gathered, weighted table: rows selected by the flat 0/1 table `P7`, columns by `P3`, weighted by `W`, summed
    over the columns. The body computes it twice, for the log-sigmoid of the logits and for the logits. -/
def gathered (P7 : FVec Ideal S16384x128 .bf16) (G : FVec Ideal S128x128 .f32) (P3 : FVec Ideal S128x128x128 .bf16)
    (W : FVec Ideal S128x128 .f32) : FVec Ideal S128x128 .f32 :=
  multiReduction .add [2] S128x128
    (mulf
      (matmul dot_S128x128x128_S128x128x128_S128x128x128_2_1_1_2_0_0 none
        (truncf .bf16
          (shapeCast S128x128x128
            (matmul dot_S16384x128_S128x128_S16384x128_1_0_0_1_n_n none P7 (truncf .bf16 G bitsLt_bf16_f32)
              (constant S16384x128 .f32 0x00000000#32))
            shapeCasts_S16384x128_S128x128x128)
          bitsLt_bf16_f32)
        P3 (constant S128x128x128 .f32 0x00000000#32))
      (broadcastTo S128x128x128 (shapeCast S1x128x128 W shapeCasts_S128x128_S1x128x128) broadcasts_S1x128x128_S128x128x128))
    0x00000000#32 reduces_S128x128x128_S128x128 (.inl rfl) rfl

theorem gathered_apply (P7 : FVec Ideal S16384x128 .bf16) (G : FVec Ideal S128x128 .f32) (P3 : FVec Ideal S128x128x128 .bf16)
    (W : FVec Ideal S128x128 .f32) (i a : Fin 128) :
    gathered P7 G P3 W (ix2 i a)
      = ∑ d : Fin 128, (∑ c : Fin 128, (∑ e : Fin 128, P7 (ix2 (flatRow i a) e) * G (ix2 e c)) * P3 (ix3 i c d)) * W (ix2 a d) := by
  unfold gathered
  refine (sum_axis2_apply _ _ _ _ i a).trans ?_
  refine Finset.sum_congr rfl fun d _ => ?_
  rw [mulf_apply, mm2_apply, bcast_table_apply, shapeCast_ab_1ab_apply]
  refine congrArg (· * W (ix2 a d)) ?_
  refine Finset.sum_congr rfl fun c _ => ?_
  rw [truncf_apply, cast_flat_cube_apply, mm1_apply]
  refine congrArg (· * P3 (ix3 i c d)) ?_
  refine Finset.sum_congr rfl fun e _ => ?_
  rw [truncf_apply]

/-- THE PAYLOAD AT (0, 0, i): relabelling i's score, in the gather-by-0/1-matrices form, of the four blocks. -/
theorem pay1_apply (x0 : Vec Ideal S1x128x128 .f32) (x1 x2 x3 : Vec Ideal S1x128x128 .i32) (i : Fin 128) :
    k1_pay1 (F := Ideal) (k1_pay3 x3) (k1_pay4 x0) (k1_pay5 x2) (k1_pay6 x1 x2) (k1_pay7 x3) (k1_pay10 x0) (k1_pay11 x0) (k1_pay12 x0)
        (ix3 (0 : Fin 1) (0 : Fin 1) i)
      = ∑ a : Fin 128,
          ((∑ d : Fin 128,
              (∑ c : Fin 128, (∑ e : Fin 128, VAE.oh (x3 (ix3 (0 : Fin 1) i a)) e * VAE.lsigK (x0 (ix3 (0 : Fin 1) e c)))
                  * VAE.oh (x3 (ix3 (0 : Fin 1) i d)) c)
                * VAE.mf (x2 (ix3 (0 : Fin 1) a d)))
            - ∑ d : Fin 128,
              (∑ c : Fin 128, (∑ e : Fin 128, VAE.oh (x3 (ix3 (0 : Fin 1) i a)) e * x0 (ix3 (0 : Fin 1) e c))
                  * VAE.oh (x3 (ix3 (0 : Fin 1) i d)) c)
                * (VAE.mf (x2 (ix3 (0 : Fin 1) a d)) * (VAE.oneF - VAE.mf (x1 (ix3 (0 : Fin 1) a d))))) := by
  have e1 : k1_pay1 (F := Ideal) (k1_pay3 x3) (k1_pay4 x0) (k1_pay5 x2) (k1_pay6 x1 x2) (k1_pay7 x3) (k1_pay10 x0) (k1_pay11 x0) (k1_pay12 x0)
      = shapeCast S1x1x128
          (shapeCast S1x128
            (multiReduction .add [1] S128
              (subf
                (gathered (k1_pay7 x3)
                  (subf (broadcast S128x128 (Scalar.ofBits (F := Ideal) .f32 0x00000000#32))
                    (select (k1_pay10 (F := Ideal) x0) (k1_pay11 (F := Ideal) x0) (k1_pay12 (F := Ideal) x0)))
                  (k1_pay3 x3) (k1_pay5 x2))
                (gathered (k1_pay7 x3) (k1_pay4 x0) (k1_pay3 x3) (k1_pay6 x1 x2)))
              0x00000000#32 reduces_S128x128_S128 (.inl rfl) rfl)
            shapeCasts_S128_S1x128)
          shapeCasts_S1x128_S1x1x128 := rfl
  rw [e1, shapeCast_ab_1ab_apply, shapeCast_a_1a_apply, sum_axis1_apply]
  refine Finset.sum_congr rfl fun a _ => ?_
  rw [subf_apply, gathered_apply, gathered_apply]
  congr 1
  · refine Finset.sum_congr rfl fun d _ => ?_
    rw [pay5_apply]
    refine congrArg (· * VAE.mf (x2 (ix3 (0 : Fin 1) a d))) ?_
    refine Finset.sum_congr rfl fun c _ => ?_
    rw [pay3_apply]
    refine congrArg (· * VAE.oh (x3 (ix3 (0 : Fin 1) i d)) c) ?_
    refine Finset.sum_congr rfl fun e _ => ?_
    rw [pay7_apply, lsig_apply, pay4_apply]
  · refine Finset.sum_congr rfl fun d _ => ?_
    rw [pay6_apply]
    refine congrArg (· * (VAE.mf (x2 (ix3 (0 : Fin 1) a d)) * (VAE.oneF - VAE.mf (x1 (ix3 (0 : Fin 1) a d))))) ?_
    refine Finset.sum_congr rfl fun c _ => ?_
    rw [pay3_apply]
    refine congrArg (· * VAE.oh (x3 (ix3 (0 : Fin 1) i d)) c) ?_
    refine Finset.sum_congr rfl fun e _ => ?_
    rw [pay7_apply, pay4_apply]

end Cert.KernelIdeal.Val

end
-- ==== Proof.KReg1.lean ====
/- Region 1 (the scores), read as a value: what its thirty grid points leave in the 30 × 1 × 128 array. -/
import proofs.«414202_j22780506538221_3_alg».proof.Proof.Gen.KernelIdeal.Frame
import proofs.«414202_j22780506538221_3_alg».proof.Proof.Spec
import proofs.«414202_j22780506538221_3_alg».proof.Proof.KReg1_Pay
import Idealize.ShloMosaic.Lib.Pipeline.Value
import Idealize.ShloMosaic.Lib.ValueIdx
import Idealize.ShloMosaic.PureOps.Ideal.Laws

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat Cfg Window)

variable (V : (c : Dev nD) → (b : Ref sig .tc) → Buf (Elt Ideal) ((c : Thread nD τ).loc b))

/-! ## Where each window's block sits -/

theorem zero_offsets3 : (![0, 0, 0] : Fin 3 → Nat) = fun _ => 0 := funext fun a => by fin_cases a <;> rfl

/-- At grid point `t` every window's block is number `t` along the graphs' axis and number 0 along the other two: the
    index maps, decided over the thirty points. -/
theorem block_index : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0)
    ∧ (win1_4.index t (0 : Fin 3) = t.val ∧ win1_4.index t (1 : Fin 3) = 0 ∧ win1_4.index t (2 : Fin 3) = 0) :=
  (by decide +kernel : ∀ t : Fin grid1.N, _)

/-- The graph a grid point works on. -/
def graphOf (t : Fin cfg1.N) : Fin 30 := ⟨t.val, lt_of_lt_of_eq t.isLt N_1⟩

/-- The logits' block at point `t` is table `t` of the logits. -/
theorem logits_block (c : Dev nD) (t : Fin cfg1.N) (e k : Fin 128) :
    (iblk1 (F := Ideal) V c 0 t : Vec Ideal S1x128x128 .f32) (ix3 (0 : Fin 1) e k)
      = (V c main_v5 : S30x128x128.Idx → EReal) (ix3 (graphOf t) e k) := by
  obtain ⟨⟨h0, h1, h2⟩, -⟩ := block_index t
  unfold iblk1
  rw [View.read_apply]
  show V c main_v5 _ = V c main_v5 _
  congr 1
  funext a; apply Fin.ext
  match a with
  | ⟨0, _⟩ => show win1_0.index t (0 : Fin 3) * 1 + 1 * 0 = t.val; omega
  | ⟨1, _⟩ => show win1_0.index t (1 : Fin 3) * 128 + 1 * e.val = e.val; omega
  | ⟨2, _⟩ => show win1_0.index t (2 : Fin 3) * 128 + 1 * k.val = k.val; omega

/-- The adjacency block at point `t` is table `t` of the adjacency words. -/
theorem adjacency_block (c : Dev nD) (t : Fin cfg1.N) (a d : Fin 128) :
    (iblk1 (F := Ideal) V c 1 t : Vec Ideal S1x128x128 .i32) (ix3 (0 : Fin 1) a d)
      = (V c main_v6 : S30x128x128.Idx → BitVec 32) (ix3 (graphOf t) a d) := by
  obtain ⟨-, ⟨h0, h1, h2⟩, -⟩ := block_index t
  unfold iblk1
  rw [View.read_apply]
  show V c main_v6 _ = V c main_v6 _
  congr 1
  funext b; apply Fin.ext
  match b with
  | ⟨0, _⟩ => show win1_1.index t (0 : Fin 3) * 1 + 1 * 0 = t.val; omega
  | ⟨1, _⟩ => show win1_1.index t (1 : Fin 3) * 128 + 1 * a.val = a.val; omega
  | ⟨2, _⟩ => show win1_1.index t (2 : Fin 3) * 128 + 1 * d.val = d.val; omega

/-- The mask block at point `t` is table `t` of the mask words. -/
theorem mask_block (c : Dev nD) (t : Fin cfg1.N) (a d : Fin 128) :
    (iblk1 (F := Ideal) V c 2 t : Vec Ideal S1x128x128 .i32) (ix3 (0 : Fin 1) a d)
      = (V c main_v7 : S30x128x128.Idx → BitVec 32) (ix3 (graphOf t) a d) := by
  obtain ⟨-, -, ⟨h0, h1, h2⟩, -⟩ := block_index t
  unfold iblk1
  rw [View.read_apply]
  show V c main_v7 _ = V c main_v7 _
  congr 1
  funext b; apply Fin.ext
  match b with
  | ⟨0, _⟩ => show win1_2.index t (0 : Fin 3) * 1 + 1 * 0 = t.val; omega
  | ⟨1, _⟩ => show win1_2.index t (1 : Fin 3) * 128 + 1 * a.val = a.val; omega
  | ⟨2, _⟩ => show win1_2.index t (2 : Fin 3) * 128 + 1 * d.val = d.val; omega

/-- The index words' block at point `t` is table `t` of the index words (graph-major). -/
theorem words_block (c : Dev nD) (t : Fin cfg1.N) (i a : Fin 128) :
    (iblk1 (F := Ideal) V c 3 t : Vec Ideal S1x128x128 .i32) (ix3 (0 : Fin 1) i a)
      = (V c main_v8 : S30x128x128.Idx → BitVec 32) (ix3 (graphOf t) i a) := by
  obtain ⟨-, -, -, ⟨h0, h1, h2⟩, -⟩ := block_index t
  unfold iblk1
  rw [View.read_apply]
  show V c main_v8 _ = V c main_v8 _
  congr 1
  funext b; apply Fin.ext
  match b with
  | ⟨0, _⟩ => show win1_3.index t (0 : Fin 3) * 1 + 1 * 0 = t.val; omega
  | ⟨1, _⟩ => show win1_3.index t (1 : Fin 3) * 128 + 1 * i.val = i.val; omega
  | ⟨2, _⟩ => show win1_3.index t (2 : Fin 3) * 128 + 1 * a.val = a.val; omega

/-! ## What a point writes back, and the cover -/

/-- The scores: entry (j, 0, i) is graph `j`'s score under relabelling `i`. -/
abbrev scores (c : Dev nD) : S30x1x128.Idx → EReal :=
  fun y => VAE.recKer (V c main_v5) (V c main_v6) (V c main_v7) (V c main_v8) (y 0) (y 2)

/-- Point `t` writes back row `t` of the scores. -/
theorem flushed_scores (c : Dev nD) (t : Fin cfg1.N) :
    (dat1 (F := Ideal) V c).flushed 4 t = ((cfg1.win 4).blk t).view.read (Elt Ideal) (scores V c) := by
  show (cfg1.win 4).cut (grid1.coords t) ((dat1 V c).after 4 t) = _
  rw [after1_4]
  unfold out1_4
  rw [View.canon_unit_zero zero_offsets3]
  simp only [View.ld_unit_zero (S := S1x128x128) zero_offsets3]
  funext y
  obtain ⟨u, v, i, rfl⟩ : ∃ (u v : Fin 1) (i : Fin 128), y = ix3 u v i := ⟨y 0, y 1, y 2, eq_ix3 y⟩
  obtain rfl : u = 0 := Subsingleton.elim _ _
  obtain rfl : v = 0 := Subsingleton.elim _ _
  rw [View.read_apply]
  refine Eq.trans (pay1_apply (iblk1 V c 0 t) (iblk1 V c 1 t) (iblk1 V c 2 t) (iblk1 V c 3 t) i) ?_
  have hemb : ((cfg1.win 4).blk t).view.emb (ix3 (0 : Fin 1) (0 : Fin 1) i) = (ix3 (graphOf t) (0 : Fin 1) i : S30x1x128.Idx) := by
    obtain ⟨-, -, -, -, ⟨h0, h1, h2⟩⟩ := block_index t
    funext b; apply Fin.ext
    match b with
    | ⟨0, _⟩ => show win1_4.index t (0 : Fin 3) * 1 + 1 * 0 = t.val; omega
    | ⟨1, _⟩ => show win1_4.index t (1 : Fin 3) * 1 + 1 * 0 = 0; omega
    | ⟨2, _⟩ => show win1_4.index t (2 : Fin 3) * 128 + 1 * i.val = i.val; omega
  rw [hemb]
  show _ = VAE.recKer (V c main_v5) (V c main_v6) (V c main_v7) (V c main_v8) (graphOf t) i
  unfold VAE.recKer
  simp only [logits_block, adjacency_block, mask_block, words_block]

/-- Every row of the array is some point's block: row `j` is point `j`'s. -/
theorem row_covered (c : Dev nD) (y : S30x1x128.Idx) :
    ∃ t : Fin cfg1.N, (cfg1.win 4).flush t = true ∧ y ∈ ((cfg1.win 4).blk t).view.set := by
  have hy0 : (y 0).val < 30 := (y 0).isLt
  have hy1 : (y 1).val < 1 := (y 1).isLt
  have hy2 : (y 2).val < 128 := (y 2).isLt
  let t : Fin cfg1.N := ⟨(y 0).val, lt_of_lt_of_eq hy0 N_1.symm⟩
  have ht : t.val = (y 0).val := rfl
  obtain ⟨-, -, -, -, ⟨h0, h1, h2⟩⟩ := block_index t
  refine ⟨t, flush1_4 t, ?_⟩
  show y ∈ ((View.whole main_v9).slice (win1_4.rect t)).set
  rw [View.set_slice_whole, Rect.mem_set_unit]
  intro b
  match b with
  | ⟨0, _⟩ => show win1_4.index t (0 : Fin 3) * 1 ≤ (y 0).val ∧ (y 0).val < win1_4.index t (0 : Fin 3) * 1 + 1; omega
  | ⟨1, _⟩ => show win1_4.index t (1 : Fin 3) * 1 ≤ (y 1).val ∧ (y 1).val < win1_4.index t (1 : Fin 3) * 1 + 1; omega
  | ⟨2, _⟩ => show win1_4.index t (2 : Fin 3) * 128 ≤ (y 2).val ∧ (y 2).val < win1_4.index t (2 : Fin 3) * 128 + 128; omega

/-- After the region, entry (j, 0, i) of the output array is graph `j`'s score under relabelling `i`, in the
    gather-by-0/1-matrices form, of the region's four input arrays (logits, adjacency, mask, index words). -/
theorem reg1_value (c : Dev nD) :
    ((dat1 (F := Ideal) V c).arrAt 4 cfg1.N : VAE.S30x1x128.Idx → EReal)
      = fun y => VAE.recKer (V c main_v5) (V c main_v6) (V c main_v7) (V c main_v8) (y 0) (y 2) :=
  (dat1 (F := Ideal) V c).arrAt_eq_of_cover 4 (scores V c) (fun t _ => flushed_scores V c t) (row_covered c)

end Cert.KernelIdeal.Val

end
-- ==== Proof.KHost.lean ====
/- The first program's host operations around its two regions, read as values: what each region is given, and the
   result as the closing arithmetic of what region 1 leaves. -/
import proofs.«414202_j22780506538221_3_alg».proof.Proof.Gen.KernelIdeal.Frame
import proofs.«414202_j22780506538221_3_alg».proof.Proof.Spec
import Idealize.ShloMosaic.Lib.Pipeline.Value
import Idealize.ShloMosaic.Lib.ValueIdx
import Idealize.ShloMosaic.PureOps.Ideal.Laws
import Idealize.ShloMosaic.Lib.StableHlo.Run

noncomputable section

namespace Cert.KernelIdeal.Val

open Cert.KernelIdeal Cert.KernelIdeal.Gen Idealize.ShloMosaic Idealize.ShloMosaic.TcCoe Idealize.SL.Sem Idealize.ShloMosaic.ValueIdx
open Idealize.ShloMosaic.Pipeline (Dat Cfg Window)

variable (m : (ℓ : Loc nD τ sig) → Buf (Elt Ideal) ℓ) (ρ : Dev nD → PrngReg)

/-- Region 0 is given the first 30 rows of the latent sample … -/
theorem V1_v3 (c : Dev nD) : (V1 m ρ c main_v3 : VAE.S30x64.Idx → EReal)
    = extractStridedSlice S30x64 ![0, 0]
        (VAE.zOf (m ((c.tc : Thread nD τ).loc main_arg0)) (m ((c.tc : Thread nD τ).loc main_arg1)) (m ((c.tc : Thread nD τ).loc main_arg2)))
        slices_S128x64_S30x64_0_0 := by
  show StableHlo.after hostOps0 (W0 m ρ c) (Proc.devRef .tc main_v3) = _
  after_results
  rfl

/-- … and the decoder matrix as launched. -/
theorem V1_arg3 (c : Dev nD) : V1 m ρ c main_arg3 = m ((c.tc : Thread nD τ).loc main_arg3) := by
  show StableHlo.after hostOps0 (W0 m ρ c) (Proc.devRef .tc main_arg3) = _
  after_results

/-- No operation before region 0 writes an argument: at region 0's entry each still holds its launch contents. -/
private theorem W1_arg4 (c : Dev nD) : W1 m ρ c (Proc.devRef .tc main_arg4) = m ((c.tc : Thread nD τ).loc main_arg4) := by
  show StableHlo.after hostOps0 (W0 m ρ c) (Proc.devRef .tc main_arg4) = _
  after_results
private theorem W1_arg5 (c : Dev nD) : W1 m ρ c (Proc.devRef .tc main_arg5) = m ((c.tc : Thread nD τ).loc main_arg5) := by
  show StableHlo.after hostOps0 (W0 m ρ c) (Proc.devRef .tc main_arg5) = _
  after_results
private theorem W1_arg6 (c : Dev nD) : W1 m ρ c (Proc.devRef .tc main_arg6) = m ((c.tc : Thread nD τ).loc main_arg6) := by
  show StableHlo.after hostOps0 (W0 m ρ c) (Proc.devRef .tc main_arg6) = _
  after_results

/-- Region 1 is given region 0's array cut into 30 tables, … -/
theorem V3_v5 (c : Dev nD) : (V3 m ρ c main_v5 : VAE.S30x128x128.Idx → EReal)
    = shapeCast S30x128x128 ((dat0 (F := Ideal) (V1 m ρ) c).arrAt 2 cfg0.N : VAE.S30x16384.Idx → EReal) shapeCasts_S30x16384_S30x128x128 := by
  show StableHlo.after hostOps1 (W2 m ρ c) (Proc.devRef .tc main_v5) = _
  after_results
  rw [show W2 m ρ c (Proc.devRef .tc main_v4) = (dat0 (F := Ideal) (V1 m ρ) c).arrAt 2 cfg0.N from W2_arr m ρ c 2]
  rfl

/-- … the first 30 adjacency tables, … -/
theorem V3_v6 (c : Dev nD) : (V3 m ρ c main_v6 : VAE.S30x128x128.Idx → BitVec 32)
    = extractStridedSlice S30x128x128 ![0, 0, 0] (m ((c.tc : Thread nD τ).loc main_arg4)) slices_S128x128x128_S30x128x128_0_0_0 := by
  show StableHlo.after hostOps1 (W2 m ρ c) (Proc.devRef .tc main_v6) = _
  after_results
  rw [W2_of_ne m ρ c main_arg4 (by decide), W1_arg4]

/-- … the first 30 masks, … -/
theorem V3_v7 (c : Dev nD) : (V3 m ρ c main_v7 : VAE.S30x128x128.Idx → BitVec 32)
    = extractStridedSlice S30x128x128 ![0, 0, 0] (m ((c.tc : Thread nD τ).loc main_arg5)) slices_S128x128x128_S30x128x128_0_0_0 := by
  show StableHlo.after hostOps1 (W2 m ρ c) (Proc.devRef .tc main_v7) = _
  after_results
  rw [W2_of_ne m ρ c main_arg5 (by decide), W1_arg5]

/-- … and the index words with their first two axes exchanged (graph-major). -/
theorem V3_v8 (c : Dev nD) : (V3 m ρ c main_v8 : VAE.S30x128x128.Idx → BitVec 32)
    = transpose S30x128x128 [1, 0, 2] (m ((c.tc : Thread nD τ).loc main_arg6)) transposes_S128x30x128_S30x128x128_1_0_2 := by
  show StableHlo.after hostOps1 (W2 m ρ c) (Proc.devRef .tc main_v8) = _
  after_results
  rw [W2_of_ne m ρ c main_arg6 (by decide), W1_arg6]

/-- A buffer neither region holds and no operation between the regions writes reads, at region 1's exit, what it
    held at region 0's entry. -/
private theorem W4_arg1 (c : Dev nD) : W4 m ρ c (Proc.devRef .tc main_arg1) = m ((c.tc : Thread nD τ).loc main_arg1) := by
  rw [W4_of_ne m ρ c main_arg1 (by decide)]
  show StableHlo.after hostOps1 (W2 m ρ c) (Proc.devRef .tc main_arg1) = _
  after_results
  rw [W2_of_ne m ρ c main_arg1 (by decide)]
  show StableHlo.after hostOps0 (W0 m ρ c) (Proc.devRef .tc main_arg1) = _
  after_results
private theorem W4_arg2 (c : Dev nD) : W4 m ρ c (Proc.devRef .tc main_arg2) = m ((c.tc : Thread nD τ).loc main_arg2) := by
  rw [W4_of_ne m ρ c main_arg2 (by decide)]
  show StableHlo.after hostOps1 (W2 m ρ c) (Proc.devRef .tc main_arg2) = _
  after_results
  rw [W2_of_ne m ρ c main_arg2 (by decide)]
  show StableHlo.after hostOps0 (W0 m ρ c) (Proc.devRef .tc main_arg2) = _
  after_results
/-- The latent sample, computed before region 0, is still in its buffer after region 1. -/
private theorem W4_v2 (c : Dev nD) : (W4 m ρ c (Proc.devRef .tc main_v2) : VAE.S128x64.Idx → EReal)
    = VAE.zOf (m ((c.tc : Thread nD τ).loc main_arg0)) (m ((c.tc : Thread nD τ).loc main_arg1)) (m ((c.tc : Thread nD τ).loc main_arg2)) := by
  rw [W4_of_ne m ρ c main_v2 (by decide)]
  show StableHlo.after hostOps1 (W2 m ρ c) (Proc.devRef .tc main_v2) = _
  after_results
  rw [W2_of_ne m ρ c main_v2 (by decide)]
  show StableHlo.after hostOps0 (W0 m ρ c) (Proc.devRef .tc main_v2) = _
  after_results
  rfl

/-- The result buffer at the last boundary: the closing arithmetic of the best-graph sum of region 1's array. -/
theorem W5_v31 (c : Dev nD) : (W5 m ρ c (Proc.devRef .tc main_v31) : VAE.S_.Idx → EReal)
    = VAE.scoreTail bcast_S_S128x64 reducesTo_S128x64_S128_d1 bcast_S_S128 reducesTo_S128_S_d0 h_S_
        (VAE.bestSumK reducesTo_S30x128_S128_d0 reducesTo_S128_S_d0 h_S_
          (shapeCast S30x128 ((dat1 (F := Ideal) (V3 m ρ) c).arrAt 4 cfg1.N : VAE.S30x1x128.Idx → EReal) shapeCasts_S30x1x128_S30x128))
        (VAE.zOf (m ((c.tc : Thread nD τ).loc main_arg0)) (m ((c.tc : Thread nD τ).loc main_arg1)) (m ((c.tc : Thread nD τ).loc main_arg2)))
        (m ((c.tc : Thread nD τ).loc main_arg1)) (m ((c.tc : Thread nD τ).loc main_arg2)) := by
  show StableHlo.after hostOps2 (W4 m ρ c) (Proc.devRef .tc main_v31) = _
  after_results_simp
  rw [show W4 m ρ c (Proc.devRef .tc main_v9) = (dat1 (F := Ideal) (V3 m ρ) c).arrAt 4 cfg1.N from W4_arr m ρ c 4,
    W4_arg1, W4_arg2, W4_v2]
  -- region 1's array and the latent sample enter both sides as they stand: name them, so that the closing
  -- comparison is between the two spellings of the arithmetic only
  generalize (dat1 (F := Ideal) (V3 m ρ) c).arrAt 4 cfg1.N = X
  generalize VAE.zOf (m ((c.tc : Thread nD τ).loc main_arg0)) (m ((c.tc : Thread nD τ).loc main_arg1)) (m ((c.tc : Thread nD τ).loc main_arg2)) = z
  unfold VAE.scoreTail VAE.bestSumK
  rfl

end Cert.KernelIdeal.Val

end
-- ==== Proof.RRun.lean ====
/- The second program's @main as the list of its host operations (the two log-sigmoid calls written out at their
   call sites over the calls' own buffers), and its run: every buffer ends at the operations' fold over the launch
   contents; the result buffer at `refOut` of the arguments, the arguments unchanged. -/
import proofs.«414202_j22780506538221_3_alg».proof.Proof.RDefs
import Idealize.ShloMosaic.Lib.StableHlo.Run

noncomputable section

namespace Cert.ReferenceIdeal.Val

open Cert.ReferenceIdeal Cert.ReferenceIdeal.Gen Idealize.ShloMosaic Idealize.ShloMosaic.TcCoe Idealize.SL.Sem Idealize.ShloMosaic.StableHlo

section Ops

variable {F : FTy → Type} [FloatOps F]

/-- @main's 107 operations in order, the calls written out. Each `log_sigmoid x` is sixteen: the negation of its
    argument, the fourteen of `softplus` on that (the zero and its three broadcasts, the maximum with zero, the
    difference from zero, the test that the difference equals itself, the sum with zero, the absolute value, its
    negation, the exponential, `log (1 + ·)`, the sum with the maximum, the selection), and the negation of the
    outcome. The first call runs over the record `main_call0`, the second over `main_call1`. -/
abbrev ops : List (HloOp τ sig (Elt F)) :=
  [ StableHlo.unary main_arg1 main_v0 (Host.exp : (⟨S128x64, .f32⟩ : BufTy).Contents (Elt F) → (⟨S128x64, .f32⟩ : BufTy).Contents (Elt F)),
    StableHlo.binary main_arg2 main_v0 main_v1 (mulf : (⟨S128x64, .f32⟩ : BufTy).Contents (Elt F) → (⟨S128x64, .f32⟩ : BufTy).Contents (Elt F) → (⟨S128x64, .f32⟩ : BufTy).Contents (Elt F)),
    StableHlo.binary main_arg0 main_v1 main_v2 (addf : (⟨S128x64, .f32⟩ : BufTy).Contents (Elt F) → (⟨S128x64, .f32⟩ : BufTy).Contents (Elt F) → (⟨S128x64, .f32⟩ : BufTy).Contents (Elt F)),
    StableHlo.binary main_v2 main_arg3 main_v3 ((fun l r => Host.dotGeneral dot_S128x64_S64x16384_S128x16384_1_0_0_1_n_n none l r) : (⟨S128x64, .f32⟩ : BufTy).Contents (Elt F) → (⟨S64x16384, .f32⟩ : BufTy).Contents (Elt F) → (⟨S128x16384, .f32⟩ : BufTy).Contents (Elt F)),
    StableHlo.reshape main_v3 main_v4 rfl shapeCasts_S128x16384_S128x128x128,
    StableHlo.unary main_v4 main_v5 ((extractStridedSlice S30x128x128 ![0, 0, 0] · slices_S128x128x128_S30x128x128_0_0_0) : (⟨S128x128x128, .f32⟩ : BufTy).Contents (Elt F) → (⟨S30x128x128, .f32⟩ : BufTy).Contents (Elt F)),
    StableHlo.unary main_arg4 main_v6 ((extractStridedSlice S30x128x128 ![0, 0, 0] · slices_S128x128x128_S30x128x128_0_0_0) : (⟨S128x128x128, .i32⟩ : BufTy).Contents (Elt F) → (⟨S30x128x128, .i32⟩ : BufTy).Contents (Elt F)),
    StableHlo.unary main_v6 main_v7 (sitofp .f32 : (⟨S30x128x128, .i32⟩ : BufTy).Contents (Elt F) → (⟨S30x128x128, .f32⟩ : BufTy).Contents (Elt F)),
    StableHlo.unary main_arg5 main_v8 ((extractStridedSlice S30x128x128 ![0, 0, 0] · slices_S128x128x128_S30x128x128_0_0_0) : (⟨S128x128x128, .i32⟩ : BufTy).Contents (Elt F) → (⟨S30x128x128, .i32⟩ : BufTy).Contents (Elt F)),
    StableHlo.unary main_v8 main_v9 (sitofp .f32 : (⟨S30x128x128, .i32⟩ : BufTy).Contents (Elt F) → (⟨S30x128x128, .f32⟩ : BufTy).Contents (Elt F)),
    StableHlo.nullary main_c (constantI S_ 32 0#32),
    StableHlo.unary main_c main_v10 (broadcastInDim S128x30x128 ![] bcast_S_S128x30x128 : (⟨S_, .i32⟩ : BufTy).Contents (Elt F) → (⟨S128x30x128, .i32⟩ : BufTy).Contents (Elt F)),
    StableHlo.binary main_arg6 main_v10 main_v11 (cmpi .slt : (⟨S128x30x128, .i32⟩ : BufTy).Contents (Elt F) → (⟨S128x30x128, .i32⟩ : BufTy).Contents (Elt F) → (⟨S128x30x128, .i1⟩ : BufTy).Contents (Elt F)),
    StableHlo.nullary main_c_0 (constantI S_ 32 128#32),
    StableHlo.unary main_c_0 main_v12 (broadcastInDim S128x30x128 ![] bcast_S_S128x30x128 : (⟨S_, .i32⟩ : BufTy).Contents (Elt F) → (⟨S128x30x128, .i32⟩ : BufTy).Contents (Elt F)),
    StableHlo.binary main_arg6 main_v12 main_v13 (addi : (⟨S128x30x128, .i32⟩ : BufTy).Contents (Elt F) → (⟨S128x30x128, .i32⟩ : BufTy).Contents (Elt F) → (⟨S128x30x128, .i32⟩ : BufTy).Contents (Elt F)),
    StableHlo.ternary main_v11 main_v13 main_arg6 main_v14 (select : (⟨S128x30x128, .i1⟩ : BufTy).Contents (Elt F) → (⟨S128x30x128, .i32⟩ : BufTy).Contents (Elt F) → (⟨S128x30x128, .i32⟩ : BufTy).Contents (Elt F) → (⟨S128x30x128, .i32⟩ : BufTy).Contents (Elt F)),
    StableHlo.unary main_v14 main_v15 (broadcastInDim S128x30x128x1 ![0, 1, 2] bcast_S128x30x128_S128x30x128x1_0_1_2 : (⟨S128x30x128, .i32⟩ : BufTy).Contents (Elt F) → (⟨S128x30x128x1, .i32⟩ : BufTy).Contents (Elt F)),
    StableHlo.binary main_v5 main_v15 main_v16 ((fun x i => Host.gather gather_S30x128x128_S128x30x128x1_S128x30x128x128_3_1_0_1_1_3_11128 x i) : (⟨S30x128x128, .f32⟩ : BufTy).Contents (Elt F) → (⟨S128x30x128x1, .i32⟩ : BufTy).Contents (Elt F) → (⟨S128x30x128x128, .f32⟩ : BufTy).Contents (Elt F)),
    StableHlo.nullary main_c_1 (constantI S_ 32 0#32),
    StableHlo.unary main_c_1 main_v17 (broadcastInDim S128x30x128 ![] bcast_S_S128x30x128 : (⟨S_, .i32⟩ : BufTy).Contents (Elt F) → (⟨S128x30x128, .i32⟩ : BufTy).Contents (Elt F)),
    StableHlo.binary main_arg6 main_v17 main_v18 (cmpi .slt : (⟨S128x30x128, .i32⟩ : BufTy).Contents (Elt F) → (⟨S128x30x128, .i32⟩ : BufTy).Contents (Elt F) → (⟨S128x30x128, .i1⟩ : BufTy).Contents (Elt F)),
    StableHlo.nullary main_c_2 (constantI S_ 32 128#32),
    StableHlo.unary main_c_2 main_v19 (broadcastInDim S128x30x128 ![] bcast_S_S128x30x128 : (⟨S_, .i32⟩ : BufTy).Contents (Elt F) → (⟨S128x30x128, .i32⟩ : BufTy).Contents (Elt F)),
    StableHlo.binary main_arg6 main_v19 main_v20 (addi : (⟨S128x30x128, .i32⟩ : BufTy).Contents (Elt F) → (⟨S128x30x128, .i32⟩ : BufTy).Contents (Elt F) → (⟨S128x30x128, .i32⟩ : BufTy).Contents (Elt F)),
    StableHlo.ternary main_v18 main_v20 main_arg6 main_v21 (select : (⟨S128x30x128, .i1⟩ : BufTy).Contents (Elt F) → (⟨S128x30x128, .i32⟩ : BufTy).Contents (Elt F) → (⟨S128x30x128, .i32⟩ : BufTy).Contents (Elt F) → (⟨S128x30x128, .i32⟩ : BufTy).Contents (Elt F)),
    StableHlo.unary main_v21 main_v22 (broadcastInDim S128x30x128x1 ![0, 1, 2] bcast_S128x30x128_S128x30x128x1_0_1_2 : (⟨S128x30x128, .i32⟩ : BufTy).Contents (Elt F) → (⟨S128x30x128x1, .i32⟩ : BufTy).Contents (Elt F)),
    StableHlo.binary main_v16 main_v22 main_v23 ((fun x i => Host.gather gather_S128x30x128x128_S128x30x128x1_S128x30x128x128_2_3_01_01_3_3_111281 x i) : (⟨S128x30x128x128, .f32⟩ : BufTy).Contents (Elt F) → (⟨S128x30x128x1, .i32⟩ : BufTy).Contents (Elt F) → (⟨S128x30x128x128, .f32⟩ : BufTy).Contents (Elt F)),
    StableHlo.TRef.unary (.of main_v23) main_call0.v0 Host.negf,
    StableHlo.TRef.nullary main_call0.call0.cst (constant S_ .f32 0x00000000#32),
    StableHlo.TRef.unary main_call0.call0.cst main_call0.call0.v0 (broadcastInDim S128x30x128x128 ![] bcast_S_S128x30x128x128),
    StableHlo.TRef.binary main_call0.v0 main_call0.call0.v0 main_call0.call0.v1 maximumf,
    StableHlo.TRef.unary main_call0.call0.cst main_call0.call0.v2 (broadcastInDim S128x30x128x128 ![] bcast_S_S128x30x128x128),
    StableHlo.TRef.binary main_call0.v0 main_call0.call0.v2 main_call0.call0.v3 subf,
    StableHlo.TRef.binary main_call0.call0.v3 main_call0.call0.v3 main_call0.call0.v4 (cmpf .une),
    StableHlo.TRef.unary main_call0.call0.cst main_call0.call0.v5 (broadcastInDim S128x30x128x128 ![] bcast_S_S128x30x128x128),
    StableHlo.TRef.binary main_call0.v0 main_call0.call0.v5 main_call0.call0.v6 addf,
    StableHlo.TRef.unary main_call0.call0.v3 main_call0.call0.v7 Host.absf,
    StableHlo.TRef.unary main_call0.call0.v7 main_call0.call0.v8 Host.negf,
    StableHlo.TRef.unary main_call0.call0.v8 main_call0.call0.v9 Host.exp,
    StableHlo.TRef.unary main_call0.call0.v9 main_call0.call0.v10 Host.log1p,
    StableHlo.TRef.binary main_call0.call0.v1 main_call0.call0.v10 main_call0.call0.v11 addf,
    StableHlo.TRef.ternary main_call0.call0.v4 main_call0.call0.v6 main_call0.call0.v11 main_call0.call0.v12 select,
    StableHlo.TRef.unary main_call0.call0.v12 main_call0.v2 Host.negf,
    StableHlo.unary main_v7 main_v25 (broadcastInDim S1x30x128x128 ![1, 2, 3] bcast_S30x128x128_S1x30x128x128_1_2_3 : (⟨S30x128x128, .f32⟩ : BufTy).Contents (Elt F) → (⟨S1x30x128x128, .f32⟩ : BufTy).Contents (Elt F)),
    StableHlo.unary main_v25 main_v26 (broadcastInDim S128x30x128x128 ![0, 1, 2, 3] bcast_S1x30x128x128_S128x30x128x128_0_1_2_3 : (⟨S1x30x128x128, .f32⟩ : BufTy).Contents (Elt F) → (⟨S128x30x128x128, .f32⟩ : BufTy).Contents (Elt F)),
    StableHlo.binary main_v26 main_v24 main_v27 (mulf : (⟨S128x30x128x128, .f32⟩ : BufTy).Contents (Elt F) → (⟨S128x30x128x128, .f32⟩ : BufTy).Contents (Elt F) → (⟨S128x30x128x128, .f32⟩ : BufTy).Contents (Elt F)),
    StableHlo.nullary main_cst (constant S_ .f32 0x3F800000#32),
    StableHlo.unary main_cst main_v28 (broadcastInDim S30x128x128 ![] bcast_S_S30x128x128 : (⟨S_, .f32⟩ : BufTy).Contents (Elt F) → (⟨S30x128x128, .f32⟩ : BufTy).Contents (Elt F)),
    StableHlo.binary main_v28 main_v7 main_v29 (subf : (⟨S30x128x128, .f32⟩ : BufTy).Contents (Elt F) → (⟨S30x128x128, .f32⟩ : BufTy).Contents (Elt F) → (⟨S30x128x128, .f32⟩ : BufTy).Contents (Elt F)),
    StableHlo.unary main_v23 main_v30 (Host.negf : (⟨S128x30x128x128, .f32⟩ : BufTy).Contents (Elt F) → (⟨S128x30x128x128, .f32⟩ : BufTy).Contents (Elt F)),
    StableHlo.TRef.unary (.of main_v30) main_call1.v0 Host.negf,
    StableHlo.TRef.nullary main_call1.call0.cst (constant S_ .f32 0x00000000#32),
    StableHlo.TRef.unary main_call1.call0.cst main_call1.call0.v0 (broadcastInDim S128x30x128x128 ![] bcast_S_S128x30x128x128),
    StableHlo.TRef.binary main_call1.v0 main_call1.call0.v0 main_call1.call0.v1 maximumf,
    StableHlo.TRef.unary main_call1.call0.cst main_call1.call0.v2 (broadcastInDim S128x30x128x128 ![] bcast_S_S128x30x128x128),
    StableHlo.TRef.binary main_call1.v0 main_call1.call0.v2 main_call1.call0.v3 subf,
    StableHlo.TRef.binary main_call1.call0.v3 main_call1.call0.v3 main_call1.call0.v4 (cmpf .une),
    StableHlo.TRef.unary main_call1.call0.cst main_call1.call0.v5 (broadcastInDim S128x30x128x128 ![] bcast_S_S128x30x128x128),
    StableHlo.TRef.binary main_call1.v0 main_call1.call0.v5 main_call1.call0.v6 addf,
    StableHlo.TRef.unary main_call1.call0.v3 main_call1.call0.v7 Host.absf,
    StableHlo.TRef.unary main_call1.call0.v7 main_call1.call0.v8 Host.negf,
    StableHlo.TRef.unary main_call1.call0.v8 main_call1.call0.v9 Host.exp,
    StableHlo.TRef.unary main_call1.call0.v9 main_call1.call0.v10 Host.log1p,
    StableHlo.TRef.binary main_call1.call0.v1 main_call1.call0.v10 main_call1.call0.v11 addf,
    StableHlo.TRef.ternary main_call1.call0.v4 main_call1.call0.v6 main_call1.call0.v11 main_call1.call0.v12 select,
    StableHlo.TRef.unary main_call1.call0.v12 main_call1.v2 Host.negf,
    StableHlo.unary main_v29 main_v32 (broadcastInDim S1x30x128x128 ![1, 2, 3] bcast_S30x128x128_S1x30x128x128_1_2_3 : (⟨S30x128x128, .f32⟩ : BufTy).Contents (Elt F) → (⟨S1x30x128x128, .f32⟩ : BufTy).Contents (Elt F)),
    StableHlo.unary main_v32 main_v33 (broadcastInDim S128x30x128x128 ![0, 1, 2, 3] bcast_S1x30x128x128_S128x30x128x128_0_1_2_3 : (⟨S1x30x128x128, .f32⟩ : BufTy).Contents (Elt F) → (⟨S128x30x128x128, .f32⟩ : BufTy).Contents (Elt F)),
    StableHlo.binary main_v33 main_v31 main_v34 (mulf : (⟨S128x30x128x128, .f32⟩ : BufTy).Contents (Elt F) → (⟨S128x30x128x128, .f32⟩ : BufTy).Contents (Elt F) → (⟨S128x30x128x128, .f32⟩ : BufTy).Contents (Elt F)),
    StableHlo.binary main_v27 main_v34 main_v35 (addf : (⟨S128x30x128x128, .f32⟩ : BufTy).Contents (Elt F) → (⟨S128x30x128x128, .f32⟩ : BufTy).Contents (Elt F) → (⟨S128x30x128x128, .f32⟩ : BufTy).Contents (Elt F)),
    StableHlo.unary main_v9 main_v36 (broadcastInDim S1x30x128x128 ![1, 2, 3] bcast_S30x128x128_S1x30x128x128_1_2_3 : (⟨S30x128x128, .f32⟩ : BufTy).Contents (Elt F) → (⟨S1x30x128x128, .f32⟩ : BufTy).Contents (Elt F)),
    StableHlo.unary main_v36 main_v37 (broadcastInDim S128x30x128x128 ![0, 1, 2, 3] bcast_S1x30x128x128_S128x30x128x128_0_1_2_3 : (⟨S1x30x128x128, .f32⟩ : BufTy).Contents (Elt F) → (⟨S128x30x128x128, .f32⟩ : BufTy).Contents (Elt F)),
    StableHlo.binary main_v35 main_v37 main_v38 (mulf : (⟨S128x30x128x128, .f32⟩ : BufTy).Contents (Elt F) → (⟨S128x30x128x128, .f32⟩ : BufTy).Contents (Elt F) → (⟨S128x30x128x128, .f32⟩ : BufTy).Contents (Elt F)),
    StableHlo.nullary main_cst_3 (constant S_ .f32 0x00000000#32),
    StableHlo.binary main_v38 main_cst_3 main_v39 ((fun x v => Host.reduceAdd x v reducesTo_S128x30x128x128_S128x30_d2_3 h_S_) : (⟨S128x30x128x128, .f32⟩ : BufTy).Contents (Elt F) → (⟨S_, .f32⟩ : BufTy).Contents (Elt F) → (⟨S128x30, .f32⟩ : BufTy).Contents (Elt F)),
    StableHlo.nullary main_cst_4 (constant S_ .f32 0xFF800000#32),
    StableHlo.binary main_v39 main_cst_4 main_v40 ((fun x v => Host.reduce FloatOps.maximumf x v reducesTo_S128x30_S128_d1 h_S_) : (⟨S128x30, .f32⟩ : BufTy).Contents (Elt F) → (⟨S_, .f32⟩ : BufTy).Contents (Elt F) → (⟨S128, .f32⟩ : BufTy).Contents (Elt F)),
    StableHlo.nullary main_cst_5 (constant S_ .f32 0x00000000#32),
    StableHlo.binary main_v40 main_cst_5 main_v41 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    StableHlo.nullary main_cst_6 (constant S_ .f32 0xBF000000#32),
    StableHlo.unary main_cst_6 main_v42 (broadcastInDim S128x64 ![] bcast_S_S128x64 : (⟨S_, .f32⟩ : BufTy).Contents (Elt F) → (⟨S128x64, .f32⟩ : BufTy).Contents (Elt F)),
    StableHlo.binary main_v42 main_arg2 main_v43 (mulf : (⟨S128x64, .f32⟩ : BufTy).Contents (Elt F) → (⟨S128x64, .f32⟩ : BufTy).Contents (Elt F) → (⟨S128x64, .f32⟩ : BufTy).Contents (Elt F)),
    StableHlo.binary main_v43 main_arg2 main_v44 (mulf : (⟨S128x64, .f32⟩ : BufTy).Contents (Elt F) → (⟨S128x64, .f32⟩ : BufTy).Contents (Elt F) → (⟨S128x64, .f32⟩ : BufTy).Contents (Elt F)),
    StableHlo.binary main_v44 main_arg1 main_v45 (subf : (⟨S128x64, .f32⟩ : BufTy).Contents (Elt F) → (⟨S128x64, .f32⟩ : BufTy).Contents (Elt F) → (⟨S128x64, .f32⟩ : BufTy).Contents (Elt F)),
    StableHlo.nullary main_cst_7 (constant S_ .f32 0x3F6B3F8E#32),
    StableHlo.unary main_cst_7 main_v46 (broadcastInDim S128x64 ![] bcast_S_S128x64 : (⟨S_, .f32⟩ : BufTy).Contents (Elt F) → (⟨S128x64, .f32⟩ : BufTy).Contents (Elt F)),
    StableHlo.binary main_v45 main_v46 main_v47 (subf : (⟨S128x64, .f32⟩ : BufTy).Contents (Elt F) → (⟨S128x64, .f32⟩ : BufTy).Contents (Elt F) → (⟨S128x64, .f32⟩ : BufTy).Contents (Elt F)),
    StableHlo.nullary main_cst_8 (constant S_ .f32 0x00000000#32),
    StableHlo.binary main_v47 main_cst_8 main_v48 ((fun x v => Host.reduceAdd x v reducesTo_S128x64_S128_d1 h_S_) : (⟨S128x64, .f32⟩ : BufTy).Contents (Elt F) → (⟨S_, .f32⟩ : BufTy).Contents (Elt F) → (⟨S128, .f32⟩ : BufTy).Contents (Elt F)),
    StableHlo.nullary main_cst_9 (constant S_ .f32 0xBF000000#32),
    StableHlo.unary main_cst_9 main_v49 (broadcastInDim S128x64 ![] bcast_S_S128x64 : (⟨S_, .f32⟩ : BufTy).Contents (Elt F) → (⟨S128x64, .f32⟩ : BufTy).Contents (Elt F)),
    StableHlo.binary main_v49 main_v2 main_v50 (mulf : (⟨S128x64, .f32⟩ : BufTy).Contents (Elt F) → (⟨S128x64, .f32⟩ : BufTy).Contents (Elt F) → (⟨S128x64, .f32⟩ : BufTy).Contents (Elt F)),
    StableHlo.binary main_v50 main_v2 main_v51 (mulf : (⟨S128x64, .f32⟩ : BufTy).Contents (Elt F) → (⟨S128x64, .f32⟩ : BufTy).Contents (Elt F) → (⟨S128x64, .f32⟩ : BufTy).Contents (Elt F)),
    StableHlo.nullary main_cst_10 (constant S_ .f32 0x3F6B3F8E#32),
    StableHlo.unary main_cst_10 main_v52 (broadcastInDim S128x64 ![] bcast_S_S128x64 : (⟨S_, .f32⟩ : BufTy).Contents (Elt F) → (⟨S128x64, .f32⟩ : BufTy).Contents (Elt F)),
    StableHlo.binary main_v51 main_v52 main_v53 (subf : (⟨S128x64, .f32⟩ : BufTy).Contents (Elt F) → (⟨S128x64, .f32⟩ : BufTy).Contents (Elt F) → (⟨S128x64, .f32⟩ : BufTy).Contents (Elt F)),
    StableHlo.nullary main_cst_11 (constant S_ .f32 0x00000000#32),
    StableHlo.binary main_v53 main_cst_11 main_v54 ((fun x v => Host.reduceAdd x v reducesTo_S128x64_S128_d1 h_S_) : (⟨S128x64, .f32⟩ : BufTy).Contents (Elt F) → (⟨S_, .f32⟩ : BufTy).Contents (Elt F) → (⟨S128, .f32⟩ : BufTy).Contents (Elt F)),
    StableHlo.binary main_v48 main_v54 main_v55 (subf : (⟨S128, .f32⟩ : BufTy).Contents (Elt F) → (⟨S128, .f32⟩ : BufTy).Contents (Elt F) → (⟨S128, .f32⟩ : BufTy).Contents (Elt F)),
    StableHlo.unary main_v41 main_v56 (broadcastInDim S128 ![] bcast_S_S128 : (⟨S_, .f32⟩ : BufTy).Contents (Elt F) → (⟨S128, .f32⟩ : BufTy).Contents (Elt F)),
    StableHlo.binary main_v56 main_v55 main_v57 (subf : (⟨S128, .f32⟩ : BufTy).Contents (Elt F) → (⟨S128, .f32⟩ : BufTy).Contents (Elt F) → (⟨S128, .f32⟩ : BufTy).Contents (Elt F)),
    StableHlo.nullary main_cst_12 (constant S_ .f32 0x00000000#32),
    StableHlo.binary main_v57 main_cst_12 main_v58 ((fun x v => Host.reduceAdd x v reducesTo_S128_S_d0 h_S_) : (⟨S128, .f32⟩ : BufTy).Contents (Elt F) → (⟨S_, .f32⟩ : BufTy).Contents (Elt F) → (⟨S_, .f32⟩ : BufTy).Contents (Elt F)),
    StableHlo.nullary main_cst_13 (constant S_ .f32 0x43000000#32),
    StableHlo.binary main_v58 main_cst_13 main_v59 (Host.divf : (⟨S_, .f32⟩ : BufTy).Contents (Elt F) → (⟨S_, .f32⟩ : BufTy).Contents (Elt F) → (⟨S_, .f32⟩ : BufTy).Contents (Elt F)),
    StableHlo.unary main_v59 main_v60 (Host.negf : (⟨S_, .f32⟩ : BufTy).Contents (Elt F) → (⟨S_, .f32⟩ : BufTy).Contents (Elt F)) ]

set_option maxRecDepth 4096 in
set_option maxHeartbeats 4000000 in
/-- @main is that straight line: the two windows in order, the functions' definitions unfolded at their calls and
    the records at their fields; both sides are one chain of steps once sequencing is re-associated. -/
theorem main_eq (c : Dev nD) : main (F := F) c = seq ops := by
  simp only [main, main_part0, main_part1, fn_log_sigmoid.body, fn_softplus.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., binary_bufs_sub .., binary_bufs_sub .., binary_bufs_sub .., reshape_bufs_sub .., unary_bufs_sub .., unary_bufs_sub .., unary_bufs_sub .., unary_bufs_sub .., unary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., unary_bufs_sub .., binary_bufs_sub .., nullary_bufs_sub .., unary_bufs_sub .., binary_bufs_sub .., unary_bufs_sub .., unary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., unary_bufs_sub .., unary_bufs_sub .., unary_bufs_sub .., binary_bufs_sub .., binary_bufs_sub .., unary_bufs_sub .., unary_bufs_sub .., binary_bufs_sub .., nullary_bufs_sub .., binary_bufs_sub .., nullary_bufs_sub .., binary_bufs_sub .., nullary_bufs_sub .., binary_bufs_sub .., nullary_bufs_sub .., unary_bufs_sub .., binary_bufs_sub .., binary_bufs_sub .., binary_bufs_sub .., nullary_bufs_sub .., unary_bufs_sub .., binary_bufs_sub .., nullary_bufs_sub .., binary_bufs_sub .., nullary_bufs_sub .., unary_bufs_sub .., binary_bufs_sub .., binary_bufs_sub .., nullary_bufs_sub .., unary_bufs_sub .., binary_bufs_sub .., nullary_bufs_sub .., binary_bufs_sub .., binary_bufs_sub .., unary_bufs_sub .., binary_bufs_sub .., nullary_bufs_sub .., binary_bufs_sub .., nullary_bufs_sub .., binary_bufs_sub .., unary_bufs_sub ..⟩

end Ops

section Fold

attribute [local irreducible] Host.gather Host.reduce Host.reduceAdd Ideal.matmul

set_option maxRecDepth 8192 in
set_option maxHeartbeats 4000000 in
/-- The fold at the result buffer, read operation by operation, is `refOut` of the contents at the seven argument
    buffers: each operation's result is its function of its operands' contents, every other buffer keeps what it
    had, and the composed term is `refOut`'s own once its definitions are opened (the shape facts agree as
    propositions). The gathers, the reductions and the matrix product stay closed meanwhile. -/
theorem out_eq (V : Valuation τ sig (Elt Ideal)) :
    after (ops (F := Ideal)) V (Proc.devRef .tc main_v60)
      = refOut (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) := by
  after_results_simp
  simp only [refOut, VAE.scoreTail, VAE.bestSumR, recArr, lsigV, softplusV, startIdx, permuted, perRelabel, VAE.zOf]
  rfl

/-! No operation writes an argument buffer: each keeps its launch contents through the fold. -/

set_option maxRecDepth 8192 in
set_option maxHeartbeats 4000000 in
theorem arg0_eq (V : Valuation τ sig (Elt Ideal)) :
    after (ops (F := Ideal)) V (Proc.devRef .tc main_arg0) = V (Proc.devRef .tc main_arg0) := by
  after_results_simp

set_option maxRecDepth 8192 in
set_option maxHeartbeats 4000000 in
theorem arg1_eq (V : Valuation τ sig (Elt Ideal)) :
    after (ops (F := Ideal)) V (Proc.devRef .tc main_arg1) = V (Proc.devRef .tc main_arg1) := by
  after_results_simp

set_option maxRecDepth 8192 in
set_option maxHeartbeats 4000000 in
theorem arg2_eq (V : Valuation τ sig (Elt Ideal)) :
    after (ops (F := Ideal)) V (Proc.devRef .tc main_arg2) = V (Proc.devRef .tc main_arg2) := by
  after_results_simp

set_option maxRecDepth 8192 in
set_option maxHeartbeats 4000000 in
theorem arg3_eq (V : Valuation τ sig (Elt Ideal)) :
    after (ops (F := Ideal)) V (Proc.devRef .tc main_arg3) = V (Proc.devRef .tc main_arg3) := by
  after_results_simp

set_option maxRecDepth 8192 in
set_option maxHeartbeats 4000000 in
theorem arg4_eq (V : Valuation τ sig (Elt Ideal)) :
    after (ops (F := Ideal)) V (Proc.devRef .tc main_arg4) = V (Proc.devRef .tc main_arg4) := by
  after_results_simp

set_option maxRecDepth 8192 in
set_option maxHeartbeats 4000000 in
theorem arg5_eq (V : Valuation τ sig (Elt Ideal)) :
    after (ops (F := Ideal)) V (Proc.devRef .tc main_arg5) = V (Proc.devRef .tc main_arg5) := by
  after_results_simp

set_option maxRecDepth 8192 in
set_option maxHeartbeats 4000000 in
theorem arg6_eq (V : Valuation τ sig (Elt Ideal)) :
    after (ops (F := Ideal)) V (Proc.devRef .tc main_arg6) = V (Proc.devRef .tc main_arg6) := by
  after_results_simp

end Fold

/-- Every weakly fair execution of the second program terminates without a fault, with the result at `refOut` of
    the launch arguments and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v60)
        = refOut (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  exact (θ_run defs _ _).mono
    (fun _ h c => ⟨(h c main_v60).trans (out_eq _), (h c main_arg0).trans (arg0_eq _), (h c main_arg1).trans (arg1_eq _),
      (h c main_arg2).trans (arg2_eq _), (h c main_arg3).trans (arg3_eq _), (h c main_arg4).trans (arg4_eq _),
      (h c main_arg5).trans (arg5_eq _), (h c main_arg6).trans (arg6_eq _)⟩)
    (run_seq scopedRefs_eq scopedSems_eq defs main (fun _ => ops) main_eq (fun _ => ops_sub) m ρ)

end Cert.ReferenceIdeal.Val

end
-- ==== Proof.RRec.lean ====
/- The second program's score array read at an entry: the two gathers pick `L j (p a) (p d)`, the per-graph tables
   are repeated along the relabelling axis, and the sum over both table axes is the double sum of `recRef`. -/
import proofs.«414202_j22780506538221_3_alg».proof.Proof.RDefs
import Idealize.ShloMosaic.Lib.ValueIdx
import Idealize.ShloMosaic.PureOps.Ideal.Laws

noncomputable section

namespace Cert.ReferenceIdeal.Val

open Cert.ReferenceIdeal Cert.ReferenceIdeal.Gen Idealize.ShloMosaic Idealize.ShloMosaic.ValueIdx

namespace RRec

/-! ## The sum over the two table axes -/

/-- The sum over the two table axes, read at (i, j), is the double sum over the table's rows and columns: the
    indices of the 128 × 30 × 128 × 128 array that lie over (i, j) are exactly the (i, j, a, d), one for each pair
    (a, d), and the initial value is zero. -/
theorem sum23_apply (x : FVec Ideal S128x30x128x128 .f32) (i : Fin 128) (j : Fin 30) :
    Host.reduceAdd (F := Ideal) (φ := .f32) x (constant (F := Ideal) S_ .f32 0x00000000#32)
        reducesTo_S128x30x128x128_S128x30_d2_3 h_S_ (ix2 i j)
      = ∑ a : Fin 128, ∑ d : Fin 128, x (ix4 i j a d) := by
  show Ideal.hostReduceAdd reducesTo_S128x30x128x128_S128x30_d2_3 x (Ideal.ofBits .f32 0x00000000#32) (ix2 i j) = _
  unfold Ideal.hostReduceAdd
  rw [Ideal.ofBits_zero_f32, zero_add]
  -- dropping the two table axes keeps the first two coordinates
  have h0 : ∀ y : S128x30x128x128.Idx, ((reducesTo_S128x30x128x128_S128x30_d2_3.drop y 0 : Fin 128) : Nat) = y 0 :=
    fun y => Shape.ReducesTo.drop_apply_val_of_eq _ y 0 0
  have h1 : ∀ y : S128x30x128x128.Idx, ((reducesTo_S128x30x128x128_S128x30_d2_3.drop y 1 : Fin 30) : Nat) = y 1 :=
    fun y => Shape.ReducesTo.drop_apply_val_of_eq _ y 1 1
  -- an index over (i, j) is (i, j, its third coordinate, its fourth)
  have hback : ∀ y : S128x30x128x128.Idx, reducesTo_S128x30x128x128_S128x30_d2_3.drop y = ix2 i j →
      ix4 i j (y 2) (y 3) = y := by
    intro y hy
    funext b
    match b with
    | ⟨0, _⟩ =>
      have e : (i : Nat) = (y 0).val := by rw [← h0 y, hy]
      exact Fin.ext e
    | ⟨1, _⟩ =>
      have e : (j : Nat) = (y 1).val := by rw [← h1 y, hy]
      exact Fin.ext e
    | ⟨2, _⟩ => rfl
    | ⟨3, _⟩ => rfl
  -- and every (i, j, a, d) lies over (i, j)
  have hfwd : ∀ a d : Fin 128, reducesTo_S128x30x128x128_S128x30_d2_3.drop (ix4 i j a d) = ix2 i j := by
    intro a d
    funext b
    match b with
    | ⟨0, _⟩ => exact Fin.ext (h0 _)
    | ⟨1, _⟩ => exact Fin.ext (h1 _)
  rw [← Fintype.sum_prod_type' (f := fun a d => x (ix4 i j a d))]
  refine Finset.sum_bij' (fun y _ => (y 2, y 3)) (fun p _ => ix4 i j p.1 p.2) (fun _ _ => Finset.mem_univ _)
    (fun p _ => Finset.mem_filter.2 ⟨Finset.mem_univ _, hfwd p.1 p.2⟩)
    (fun y hy => hback y (Finset.mem_filter.1 hy).2) (fun _ _ => rfl) ?_
  intro y hy
  exact (congrArg x (hback y (Finset.mem_filter.1 hy).2)).symm

/-! ## The elementwise operations at (i, j, a, d) -/

/-- A per-graph table repeated along the relabelling axis reads, at (i, j, a, d), the table at (j, a, d). -/
theorem perRelabel_apply (T : FVec Ideal S30x128x128 .f32) (i : Fin 128) (j : Fin 30) (a d : Fin 128) :
    perRelabel T (ix4 i j a d) = T (ix3 j a d) := by
  unfold perRelabel
  simp only [broadcastInDim]
  congr 1
  funext b
  match b with
  | ⟨0, _⟩ => rfl
  | ⟨1, _⟩ => rfl
  | ⟨2, _⟩ => rfl

/-- The log-sigmoid of an array at an index is `lsigR` of the entry: every operation of `−softplus (−x)` acts
    entry by entry, and the zero it compares with, adds and takes the maximum with is the real number zero. -/
theorem lsigV_apply (X : FVec Ideal S128x30x128x128 .f32) (y : S128x30x128x128.Idx) :
    lsigV X y = VAE.lsigR (X y) := by
  unfold lsigV softplusV VAE.lsigR
  simp only [Host.negf, Host.absf, Host.exp, Host.log1p, select, cmpf, subf, addf, maximumf, broadcastInDim, constant,
    Ideal.ofBits_def, Ideal.ofBits_zero_f32, Ideal.hostNegf_def, Ideal.negf_def, Ideal.hostAbsf_def,
    Ideal.hostUnary_exp_def, Ideal.hostUnary_log1p_def, Ideal.addf_def, Ideal.subf_def, Ideal.maximumf_def]
  rfl

/-- The negation of an array at an index. -/
theorem hostNegf_apply (X : FVec Ideal S128x30x128x128 .f32) (y : S128x30x128x128.Idx) : Host.negf X y = -(X y) := rfl

/-! ## The two gathers -/

/-- A rank-3 array given a trailing unit axis reads, at (i, j, a, 0), the array at (i, j, a). -/
theorem unitAxis_apply {α : Type} (T : S128x30x128.Idx → α) (i : Fin 128) (j : Fin 30) (a : Fin 128) :
    broadcastInDim S128x30x128x1 ![0, 1, 2] bcast_S128x30x128_S128x30x128x1_0_1_2 T (ix4 i j a (0 : Fin 1))
      = T (ix3 i j a) := by
  simp only [broadcastInDim]
  congr 1
  funext b
  match b with
  | ⟨0, _⟩ => rfl
  | ⟨1, _⟩ => rfl
  | ⟨2, _⟩ => rfl

/-- The start index of word (i, j, a): the word itself, shifted by 128 when it is negative. -/
theorem startIdx_apply (Pm : IVec S128x30x128 32) (i : Fin 128) (j : Fin 30) (a : Fin 128) :
    startIdx Pm (ix4 i j a (0 : Fin 1))
      = Scalar.select (IntOp.cmpi .slt (Pm (ix3 i j a)) 0#32) (Pm (ix3 i j a) + 128#32) (Pm (ix3 i j a)) := by
  unfold startIdx
  rw [unitAxis_apply]
  rfl

/-- A start index read as a signed number and clamped into 0 … 127, as a gather clamps it. -/
def clampIdx (w : BitVec 32) : Fin 128 := ⟨min w.toInt.toNat 127, by omega⟩

/-- The dimension numbers of the row gather and of the column gather, under short names. -/
abbrev dRows := gather_S30x128x128_S128x30x128x1_S128x30x128x128_3_1_0_1_1_3_11128
abbrev dCols := gather_S128x30x128x128_S128x30x128x1_S128x30x128x128_2_3_01_01_3_3_111281

/-- The row gather: entry (i, j, a, c) is, of graph `j`'s table, the row that start index (i, j, a) names (read
    signed and clamped into 0 … 127) at column `c`. -/
theorem gatherRows_apply (L : FVec Ideal S30x128x128 .f32) (idx : IVec S128x30x128x1 32)
    (i : Fin 128) (j : Fin 30) (a c : Fin 128) :
    Host.gather gather_S30x128x128_S128x30x128x1_S128x30x128x128_3_1_0_1_1_3_11128 L idx (ix4 i j a c)
      = L (ix3 j (clampIdx (idx (ix4 i j a (0 : Fin 1)))) c) := by
  unfold Host.gather
  congr 1
  funext b
  refine Fin.ext ?_
  match b with
  | ⟨0, _⟩ =>
    -- the graph axis is a batching axis: it carries the result's graph coordinate
    show dRows.start (ix4 i j a c) idx 0 + dRows.batchCoord (ix4 i j a c) 0 + dRows.offCoord (ix4 i j a c) 0 = j.val
    rw [GatherDims.start_batching _ _ _ _ (by decide), GatherDims.offCoord_eq_zero _ _ _ (by decide), Nat.zero_add,
      Nat.add_zero]
    rfl
  | ⟨1, _⟩ =>
    -- the row axis is collapsed and start-indexed: the clamped start index alone
    show dRows.start (ix4 i j a c) idx 1 + dRows.batchCoord (ix4 i j a c) 1 + dRows.offCoord (ix4 i j a c) 1
      = min (idx (ix4 i j a (0 : Fin 1))).toInt.toNat 127
    rw [GatherDims.batchCoord_eq_zero _ _ _ (by decide), GatherDims.offCoord_eq_zero _ _ _ (by decide), Nat.add_zero]
    unfold GatherDims.start
    rw [dif_pos (by decide)]
    have hsi : dRows.siIdx (ix4 i j a c) ⟨List.idxOf (1 : Fin 3) dRows.startIndexMap,
        List.idxOf_lt_length_iff.2 (by decide)⟩ = ix4 i j a (0 : Fin 1) := by
      funext e
      refine Fin.ext ?_
      match e with
      | ⟨0, _⟩ => rfl
      | ⟨1, _⟩ => rfl
      | ⟨2, _⟩ => rfl
      | ⟨3, _⟩ => rfl
    rw [hsi]
    rfl
  | ⟨2, _⟩ =>
    -- the column axis is the offset axis: the result's last coordinate
    show dRows.start (ix4 i j a c) idx 2 + dRows.batchCoord (ix4 i j a c) 2 + dRows.offCoord (ix4 i j a c) 2 = c.val
    rw [GatherDims.batchCoord_eq_zero _ _ _ (by decide), Nat.add_zero]
    unfold GatherDims.start
    rw [dif_neg (by decide), Nat.zero_add]
    rfl

/-- The column gather: entry (i, j, a, d) is the operand at (i, j, a) and the column that start index (i, j, d)
    names (read signed and clamped into 0 … 127). -/
theorem gatherCols_apply (X : FVec Ideal S128x30x128x128 .f32) (idx : IVec S128x30x128x1 32)
    (i : Fin 128) (j : Fin 30) (a d : Fin 128) :
    Host.gather gather_S128x30x128x128_S128x30x128x1_S128x30x128x128_2_3_01_01_3_3_111281 X idx (ix4 i j a d)
      = X (ix4 i j a (clampIdx (idx (ix4 i j d (0 : Fin 1))))) := by
  unfold Host.gather
  congr 1
  funext b
  refine Fin.ext ?_
  match b with
  | ⟨0, _⟩ =>
    -- the relabelling axis is a batching axis
    show dCols.start (ix4 i j a d) idx 0 + dCols.batchCoord (ix4 i j a d) 0 + dCols.offCoord (ix4 i j a d) 0 = i.val
    rw [GatherDims.start_batching _ _ _ _ (by decide), GatherDims.offCoord_eq_zero _ _ _ (by decide), Nat.zero_add,
      Nat.add_zero]
    rfl
  | ⟨1, _⟩ =>
    -- the graph axis is a batching axis
    show dCols.start (ix4 i j a d) idx 1 + dCols.batchCoord (ix4 i j a d) 1 + dCols.offCoord (ix4 i j a d) 1 = j.val
    rw [GatherDims.start_batching _ _ _ _ (by decide), GatherDims.offCoord_eq_zero _ _ _ (by decide), Nat.zero_add,
      Nat.add_zero]
    rfl
  | ⟨2, _⟩ =>
    -- the row axis is the offset axis: the result's third coordinate
    show dCols.start (ix4 i j a d) idx 2 + dCols.batchCoord (ix4 i j a d) 2 + dCols.offCoord (ix4 i j a d) 2 = a.val
    rw [GatherDims.batchCoord_eq_zero _ _ _ (by decide), Nat.add_zero]
    unfold GatherDims.start
    rw [dif_neg (by decide), Nat.zero_add]
    rfl
  | ⟨3, _⟩ =>
    -- the column axis is collapsed and start-indexed: the clamped start index alone
    show dCols.start (ix4 i j a d) idx 3 + dCols.batchCoord (ix4 i j a d) 3 + dCols.offCoord (ix4 i j a d) 3
      = min (idx (ix4 i j d (0 : Fin 1))).toInt.toNat 127
    rw [GatherDims.batchCoord_eq_zero _ _ _ (by decide), GatherDims.offCoord_eq_zero _ _ _ (by decide), Nat.add_zero]
    unfold GatherDims.start
    rw [dif_pos (by decide)]
    have hsi : dCols.siIdx (ix4 i j a d) ⟨List.idxOf (3 : Fin 4) dCols.startIndexMap,
        List.idxOf_lt_length_iff.2 (by decide)⟩ = ix4 i j d (0 : Fin 1) := by
      funext e
      refine Fin.ext ?_
      match e with
      | ⟨0, _⟩ => rfl
      | ⟨1, _⟩ => rfl
      | ⟨2, _⟩ => rfl
      | ⟨3, _⟩ => rfl
    rw [hsi]
    rfl

/-- Rows then columns: entry (i, j, a, d) of the gathered array is `L j (p a) (p d)`, `p` the positions the index
    words of relabelling `i` of graph `j` select. -/
theorem permuted_apply (L : FVec Ideal S30x128x128 .f32) (Pm : IVec S128x30x128 32)
    (i : Fin 128) (j : Fin 30) (a d : Fin 128) :
    permuted L Pm (ix4 i j a d) = L (ix3 j (VAE.gIdx (Pm (ix3 i j a))) (VAE.gIdx (Pm (ix3 i j d)))) := by
  unfold permuted
  rw [gatherCols_apply, gatherRows_apply, startIdx_apply, startIdx_apply]
  rfl

end RRec

open RRec

/-! ## The score array at an entry -/

/-- Entry (i, j) of the score array is `recRef` at relabelling `i` of graph `j`. -/
theorem recArr_apply (L : FVec Ideal S30x128x128 .f32) (Aw Mw : IVec S30x128x128 32) (Pm : IVec S128x30x128 32)
    (i : Fin 128) (j : Fin 30) : recArr L Aw Mw Pm (ix2 i j) = VAE.recRef L Aw Mw Pm i j := by
  unfold recArr VAE.recRef
  rw [sum23_apply]
  refine Finset.sum_congr rfl fun a _ => Finset.sum_congr rfl fun d _ => ?_
  simp only [mulf_apply, addf_apply, perRelabel_apply, lsigV_apply, hostNegf_apply, permuted_apply]
  rfl

end Cert.ReferenceIdeal.Val

end
-- ==== Proof.lean ====
/- The certificate's claim. The three frames: the two programs with regions by their generated frame theorems, the
   host-only program by its run with the result dropped. The idealization rewrote nothing, so its conjunct is
   trivial. The equivalence: under the precondition (finite float inputs, every index word in 0 … 127) both programs
   end with the same extended real — the second program's function `refOut` of the arguments. For the first program
   this is read off its run: the closing arithmetic is the same in both; the best-graph sums agree because the two
   score arrays are transposes of each other; and score by score the gather-by-0/1-matrices form equals the
   index-the-table form over the common logits. -/
import proofs.«414202_j22780506538221_3_alg».proof.Defs
import proofs.«414202_j22780506538221_3_alg».proof.Proof.Gen.Kernel
import proofs.«414202_j22780506538221_3_alg».proof.Proof.Gen.Kernel.Frame
import proofs.«414202_j22780506538221_3_alg».proof.Proof.Gen.KernelIdeal
import proofs.«414202_j22780506538221_3_alg».proof.Proof.Gen.KernelIdeal.Frame
import proofs.«414202_j22780506538221_3_alg».proof.Proof.Gen.ReferenceIdeal
import proofs.«414202_j22780506538221_3_alg».proof.Proof.Gen.Pre_finite_inputs
import proofs.«414202_j22780506538221_3_alg».proof.Proof.RDefs
import proofs.«414202_j22780506538221_3_alg».proof.Proof.Bridge
import proofs.«414202_j22780506538221_3_alg».proof.Proof.Logits
import proofs.«414202_j22780506538221_3_alg».proof.Proof.LogitsR
import proofs.«414202_j22780506538221_3_alg».proof.Proof.PreFacts
import proofs.«414202_j22780506538221_3_alg».proof.Proof.Algebra
import proofs.«414202_j22780506538221_3_alg».proof.Proof.KReg0
import proofs.«414202_j22780506538221_3_alg».proof.Proof.KReg1
import proofs.«414202_j22780506538221_3_alg».proof.Proof.KHost
import proofs.«414202_j22780506538221_3_alg».proof.Proof.KRun
import proofs.«414202_j22780506538221_3_alg».proof.Proof.RRun
import proofs.«414202_j22780506538221_3_alg».proof.Proof.RRec
import Idealize.ShloMosaic.Lib.Pipeline.Value
import Idealize.ShloMosaic.Adequacy
import Idealize.ShloMosaic.Init

noncomputable section

namespace Cert.Proof

open Idealize.ShloMosaic Idealize.ShloMosaic.TcCoe Idealize.SL.Sem Idealize.ShloMosaic.ValueIdx

/-! ## The first program's result is the second program's function of the arguments -/

section Value

open Cert.KernelIdeal Cert.KernelIdeal.Gen

variable (m : (ℓ : Loc nD τ sig) → Buf (Elt Ideal) ℓ) (ρ : Dev nD → PrngReg)

/-- The index words transposed read, at (j, i, a), the word (i, j, a). -/
theorem transposed_words (P : IVec S128x30x128 32) (i : Fin 128) (j : Fin 30) (a : Fin 128) :
    transpose S30x128x128 [1, 0, 2] P transposes_S128x30x128_S30x128x128_1_0_2 (ix3 j i a) = P (ix3 i j a) :=
  transpose_apply _ P _ _ _ fun b => match b with | ⟨0, _⟩ => rfl | ⟨1, _⟩ => rfl | ⟨2, _⟩ => rfl

/-- Under the precondition the result buffer of the first program ends at `refOut` of the launch arguments: the
    closing arithmetic is shared, the best-graph sums agree because the score arrays are transposes of each other,
    and entry by entry the scores agree by `VAE.recKer_eq_recRef` over the common logits `VAE.logitOf`. -/
theorem kernel_value (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) :
    (W5 m ρ c (Proc.devRef .tc main_v31) : VAE.S_.Idx → EReal)
      = Cert.ReferenceIdeal.Val.refOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  have h0 := PreFacts.real_arg0 _ _ _ _ _ _ _ hpre
  have h1 := PreFacts.real_arg1 _ _ _ _ _ _ _ hpre
  have h2 := PreFacts.real_arg2 _ _ _ _ _ _ _ hpre
  have h3 := PreFacts.real_arg3 _ _ _ _ _ _ _ hpre
  have h6 := PreFacts.range_arg6 _ _ _ _ _ _ _ hpre
  rw [Cert.KernelIdeal.Val.W5_v31 m ρ c]
  unfold Cert.ReferenceIdeal.Val.refOut
  refine congrArg (fun RE => VAE.scoreTail _ _ _ _ _ RE _ _ _) ?_
  refine VAE.bestSum_eq _ _ _ _ _ _ fun j i => ?_
  rw [Cert.ReferenceIdeal.Val.recArr_apply, Cert.ReferenceIdeal.Val.logits_ref]
  rw [shapeCast_apply _ shapeCasts_S30x1x128_S30x128 (ix2 j i) (ix3 j (0 : Fin 1) i) (by
    rw [Shape.rowMajor_val_two, Shape.rowMajor_val_three]
    show (j.val * 1 + 0) * 128 + i.val = j.val * 128 + i.val
    omega)]
  rw [Cert.KernelIdeal.Val.reg1_value (V3 m ρ) c]
  show VAE.recKer (V3 m ρ c main_v5) (V3 m ρ c main_v6) (V3 m ρ c main_v7) (V3 m ρ c main_v8) j i = _
  rw [Cert.KernelIdeal.Val.V3_v5 m ρ c, Cert.KernelIdeal.Val.V3_v6 m ρ c, Cert.KernelIdeal.Val.V3_v7 m ρ c,
    Cert.KernelIdeal.Val.V3_v8 m ρ c, Cert.KernelIdeal.Val.reg0_value (V1 m ρ) c, Cert.KernelIdeal.Val.V1_v3 m ρ c,
    Cert.KernelIdeal.Val.V1_arg3 m ρ c, VAE.logits_of_prod30]
  exact VAE.recKer_eq_recRef _ _ _ _ _ (fun i j a => transposed_words _ i j a) h6
    (VAE.logitOf_real _ _ (VAE.zOf_real _ _ _ h0 h1 h2) h3) j i

end Value

/-! ## The claims -/

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Val.ref_run m ρ)

theorem algebraic : Cert.algebraic_KernelIdeal_ReferenceIdeal := by
  intro m ρ m' ρ' hpre hagree
  refine ⟨fun c => Cert.ReferenceIdeal.Val.refOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun _ h c => ⟨(h c).1.trans (kernel_value m ρ c (hpre c)), (h c).2⟩)
      (Cert.KernelIdeal.Val.run_result (F := Ideal) m ρ)
  · refine (θ_run Cert.ReferenceIdeal.defs _ _).mono (fun _ h c => ⟨(h c).1.trans ?_, (h c).2⟩)
      (Cert.ReferenceIdeal.Val.ref_run m' ρ')
    rw [(hagree c).1, (hagree c).2.1, (hagree c).2.2.1, (hagree c).2.2.2.1, (hagree c).2.2.2.2.1, (hagree c).2.2.2.2.2.1,
      (hagree c).2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
